-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x17x256x256 : Shape := ⟨4, ![32, 17, 256, 256]⟩
abbrev S32x1x256x256 : Shape := ⟨4, ![32, 1, 256, 256]⟩
abbrev S_ : Shape := ⟨0, ![]⟩

class Facts : Prop where
  bcast_S_S32x17x256x256 : S_.BroadcastsInDim S32x17x256x256 (![] : Fin 0 → Fin S32x17x256x256.rank)
  reducesTo_S32x17x256x256_S_d0_1_2_3 : S32x17x256x256.ReducesTo [0, 1, 2, 3] S_
  h_S_ : 0 < S_.numel

variable [Facts]

def fn {F : FTy → Type} [FloatOps F] (main_arg0 : FVec F S32x17x256x256 .f32) (main_arg1 : FVec F S32x17x256x256 .f32) (main_arg2 : IVec S32x17x256x256 1) (main_arg3 : IVec S32x1x256x256 1) : IVec S_ 1 :=
  let main_v0 : FVec F S32x17x256x256 .f32 := Host.absf main_arg0
  let main_cst : FVec F S_ .f32 := constant S_ .f32 0x7F800000#32
  let main_v1 : FVec F S32x17x256x256 .f32 := broadcastInDim S32x17x256x256 ![] bcast_S_S32x17x256x256 main_cst
  let main_v2 : IVec S32x17x256x256 1 := cmpf .olt main_v0 main_v1
  let main_c : IVec S_ 1 := constantI S_ 1 1#1
  let main_v3 : IVec S_ 1 := (fun x v => Host.reduce IntOp.andi x v reducesTo_S32x17x256x256_S_d0_1_2_3 h_S_) main_v2 main_c
  let main_v4 : FVec F S32x17x256x256 .f32 := Host.absf main_arg1
  let main_cst_0 : FVec F S_ .f32 := constant S_ .f32 0x7F800000#32
  let main_v5 : FVec F S32x17x256x256 .f32 := broadcastInDim S32x17x256x256 ![] bcast_S_S32x17x256x256 main_cst_0
  let main_v6 : IVec S32x17x256x256 1 := cmpf .olt main_v4 main_v5
  let main_c_1 : IVec S_ 1 := constantI S_ 1 1#1
  let main_v7 : IVec S_ 1 := (fun x v => Host.reduce IntOp.andi x v reducesTo_S32x17x256x256_S_d0_1_2_3 h_S_) main_v6 main_c_1
  let main_v8 : IVec S_ 1 := andi main_v3 main_v7
  main_v8
-- ==== Kernel.lean ====
abbrev S32x17x256x256 : Shape := ⟨4, ![32, 17, 256, 256]⟩
abbrev S32x1x256x256 : Shape := ⟨4, ![32, 1, 256, 256]⟩
abbrev S1x1 : Shape := ⟨2, ![1, 1]⟩
abbrev S1x17x256x256 : Shape := ⟨4, ![1, 17, 256, 256]⟩
abbrev S17x256x256 : Shape := ⟨3, ![17, 256, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S32x17x256x256, .f32⟩
  | .hbm, ⟨1, _⟩ => ⟨S32x17x256x256, .f32⟩
  | .hbm, ⟨2, _⟩ => ⟨S32x17x256x256, .i1⟩
  | .hbm, ⟨3, _⟩ => ⟨S32x1x256x256, .i1⟩
  | .hbm, ⟨4, _⟩ => ⟨S1x1, .f32⟩
  | .hbm, ⟨5, _⟩ => ⟨S_, .f32⟩
  | .local _ .vmem, ⟨0, _⟩ => ⟨S1x17x256x256, .f32⟩
  | .local _ .vmem, ⟨1, _⟩ => ⟨S1x17x256x256, .f32⟩
  | .local _ .vmem, ⟨2, _⟩ => ⟨S1x17x256x256, .f32⟩
  | .local _ .vmem, ⟨3, _⟩ => ⟨S1x17x256x256, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S32x17x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v66 : BitVec 1 := Scalar.cmpi .eq arg0 c31_i32
  let v67 : BitVec 32 := Scalar.extui v66
  let c0_i32_42 : BitVec 32 := 0#32
  let v68 : BitVec 1 := Scalar.cmpi .ne v67 c0_i32_42
  v68

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x17x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x17x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x17x256x256_S1x17x256x256_0_0_0_0 : ∀ a, (![0, 0, 0, 0] : Fin 4 → Nat) a + S1x17x256x256.size a ≤ S1x17x256x256.size a
  h_S1x17x256x256 : 0 < S1x17x256x256.numel
  shapeCasts_S1x17x256x256_S17x256x256 : S1x17x256x256.ShapeCasts S17x256x256
  reduces_S17x256x256_S256x256 : S17x256x256.Reduces [0] S256x256
  reduces_S256x256_S256 : S256x256.Reduces [1] S256
  shapeCasts_S256_S256x1 : S256.ShapeCasts S256x1
  reduces_S256x1_S1 : S256x1.Reduces [0] S1
  shapeCasts_S1_S1x1 : S1.ShapeCasts S1x1
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x17x256x256.size a ≤ S32x17x256x256.size a
  hwx0_0 : ∀ i : grid0.Coords, EltTy.bits .f32 = 32 ∨ (Rect.block (s := S32x17x256x256) S1x17x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x17x256x256.size a ≤ S32x17x256x256.size a
  hwx0_1 : ∀ i : grid0.Coords, EltTy.bits .f32 = 32 ∨ (Rect.block (s := S32x17x256x256) S1x17x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x17x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x17x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x17x256x256 : Shape := ⟨4, ![32, 17, 256, 256]⟩
abbrev S32x1x256x256 : Shape := ⟨4, ![32, 1, 256, 256]⟩
abbrev S_ : Shape := ⟨0, ![]⟩
abbrev S32x256x256 : Shape := ⟨3, ![32, 256, 256]⟩

abbrev nBuf : Space → Nat
  | .hbm => 38
  | .vmem => 0
  | .smem => 0
  | _ => 0

abbrev bufTy : (tb : Table) → Fin (tcTables nBuf tb) → BufTy
  | .hbm, ⟨0, _⟩ => ⟨S32x17x256x256, .f32⟩
  | .hbm, ⟨1, _⟩ => ⟨S32x17x256x256, .f32⟩
  | .hbm, ⟨2, _⟩ => ⟨S32x17x256x256, .i1⟩
  | .hbm, ⟨3, _⟩ => ⟨S32x1x256x256, .i1⟩
  | .hbm, ⟨4, _⟩ => ⟨S_, .f32⟩
  | .hbm, ⟨5, _⟩ => ⟨S32x17x256x256, .f32⟩
  | .hbm, ⟨6, _⟩ => ⟨S32x17x256x256, .i1⟩
  | .hbm, ⟨7, _⟩ => ⟨S_, .i1⟩
  | .hbm, ⟨8, _⟩ => ⟨S32x256x256, .i1⟩
  | .hbm, ⟨9, _⟩ => ⟨S32x1x256x256, .i1⟩
  | .hbm, ⟨10, _⟩ => ⟨S32x17x256x256, .f32⟩
  | .hbm, ⟨11, _⟩ => ⟨S32x17x256x256, .f32⟩
  | .hbm, ⟨12, _⟩ => ⟨S_, .f32⟩
  | .hbm, ⟨13, _⟩ => ⟨S32x17x256x256, .f32⟩
  | .hbm, ⟨14, _⟩ => ⟨S32x17x256x256, .f32⟩
  | .hbm, ⟨15, _⟩ => ⟨S_, .f32⟩
  | .hbm, ⟨16, _⟩ => ⟨S_, .f32⟩
  | .hbm, ⟨17, _⟩ => ⟨S32x17x256x256, .i32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S32x1x256x256, .i32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32x17x256x256, .i1⟩
  | .hbm, ⟨30, _⟩ => ⟨S32x17x256x256, .f32⟩
  | .hbm, ⟨31, _⟩ => ⟨S32x17x256x256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S32x17x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩

abbrev nD : Nat := 1
abbrev τ : Topo := Topo.v7x

variable {F : FTy → Type} [FloatOps F]

class Facts₀ : Prop where
  bcast_S_S32x17x256x256 : S_.BroadcastsInDim S32x17x256x256 (![] : Fin 0 → Fin S32x17x256x256.rank)
  reducesTo_S32x17x256x256_S32x256x256_d1 : S32x17x256x256.ReducesTo [1] S32x256x256
  h_S_ : 0 < S_.numel
  bcast_S32x256x256_S32x1x256x256_0_2_3 : S32x256x256.BroadcastsInDim S32x1x256x256 (![0, 2, 3] : Fin 3 → Fin S32x1x256x256.rank)
  reducesTo_S32x17x256x256_S_d0_1_2_3 : S32x17x256x256.ReducesTo [0, 1, 2, 3] S_
  natLt_1_32 : 1 < 32
  reducesTo_S32x1x256x256_S_d0_1_2_3 : S32x1x256x256.ReducesTo [0, 1, 2, 3] S_
  bcast_S32x1x256x256_S32x17x256x256_0_1_2_3 : S32x1x256x256.BroadcastsInDim S32x17x256x256 (![0, 1, 2, 3] : Fin 4 → Fin S32x17x256x256.rank)

variable [Facts₀]

class Facts : Prop extends Facts₀ where

variable [Facts]
-- ==== Proof.Pieces.lean ====
import proofs.«400264_j44032004718828_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! # What one grid point leaves in the four running totals and in the output block

The kernel keeps four one-element running totals. At the first grid point it zeroes each and then adds the point's
contribution; at every later point it adds the point's contribution to what the point before left; at the last point it
also writes the output block: half the sum of the two quotients of the totals. Each statement below reads one of the
body's stores back as a pure function of the point's two input blocks (and, after the first point, of the totals found):
the store's rectangle is the whole one-element buffer, so the buffer afterwards holds exactly the stored value. -/

namespace Cert.KernelIdeal.Means

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- First point, total 0 (the masked sum of distances): zeroed, then the point's contribution added to the zero read back. -/
theorem first_0 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : cond0_0 i) (hc1 : ¬cond0_1 i) (x0 x1 : Vec F S1x17x256x256 .f32) :
    sout0_A_0 c i a1 h1 a2 h2 a3 h3 a4 h4 a5 h5 a6 h6 a7 h7 hc0 hc1 x0 x1 = k0_pay13 (k0_pay9 x0 x1) (k0_pay2 (F := F)) := by
  unfold sout0_A_0
  rw [View.read_writes_eq_canon _ _ _ (scover0_A_0 c i a1 h1 a2 h2 a3 h3 a4 h4 a5 h5 a6 h6 a7 h7 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, h4.read_unread, h5.read_unread, h6.read_unread, h7.read_unread,
    View.ld_unit_zero (S := S1x17x256x256) hz4, View.ld_unit_zero (S := S1x1) hz2]

/-- A middle point, total 0 (the masked sum of distances): the point's contribution added to what the point before left. -/
theorem middle_0 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : ¬cond0_1 i) (x0 x1 : Vec F S1x17x256x256 .f32) (xs0 xs1 xs2 xs3 : Vec F S1x1 .f32) :
    sout0_B_0 c i a1 h1 a2 h2 a3 h3 a4 h4 a5 h5 a6 h6 a7 h7 hc0 hc1 x0 x1 xs0 xs1 xs2 xs3 = k0_pay13 (k0_pay9 x0 x1) xs0 := by
  unfold sout0_B_0
  rw [View.read_writes_eq_canon _ _ _ (scover0_B_0 c i a1 h1 a2 h2 a3 h3 a4 h4 a5 h5 a6 h6 a7 h7 hc0 hc1 x0 x1 xs0 xs1 xs2 xs3)]
  unfold kernelRun0_B
  dsimp only
  sl_unfold_words
  rw [View.canon_unit_zero hz2]
  simp only [View.readAt_eq_ld, h1.read_unread, h2.read_unread, h4.read_unread, h5.read_unread, h6.read_unread, h7.read_unread,
    View.ld_unit_zero (S := S1x17x256x256) hz4, View.ld_unit_zero (S := S1x1) hz2]

/-- The last point, total 0 (the masked sum of distances): the point's contribution added to what the point before left. -/
theorem last_0 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : cond0_1 i) (x0 x1 : Vec F S1x17x256x256 .f32) (xs0 xs1 xs2 xs3 : Vec F S1x1 .f32) :
    sout0_C_0 c i a1 h1 a2 h2 a3 h3 a4 h4 a5 h5 a6 h6 a7 h7 hc0 hc1 x0 x1 xs0 xs1 xs2 xs3 = k0_pay13 (k0_pay9 x0 x1) xs0 := by
  unfold sout0_C_0
  rw [View.read_writes_eq_canon _ _ _ (scover0_C_0 c i a1 h1 a2 h2 a3 h3 a4 h4 a5 h5 a6 h6 a7 h7 hc0 hc1 x0 x1 xs0 xs1 xs2 xs3)]
  unfold kernelRun0_C
  dsimp only
  sl_unfold_words
  rw [View.canon_unit_zero hz2]
  simp only [View.readAt_eq_ld, h1.read_unread, h2.read_unread, h4.read_unread, h5.read_unread, h6.read_unread, h7.read_unread,
    View.ld_unit_zero (S := S1x17x256x256) hz4, View.ld_unit_zero (S := S1x1) hz2]

/-- First point, total 1 (the count of positive targets): zeroed, then the point's contribution added to the zero read back. -/
theorem first_1 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : cond0_0 i) (hc1 : ¬cond0_1 i) (x0 x1 : Vec F S1x17x256x256 .f32) :
    sout0_A_1 c i a1 h1 a2 h2 a3 h3 a4 h4 a5 h5 a6 h6 a7 h7 hc0 hc1 x0 x1 = k0_pay14 (k0_pay10 x1) (k0_pay3 (F := F)) := by
  unfold sout0_A_1
  rw [View.read_writes_eq_canon _ _ _ (scover0_A_1 c i a1 h1 a2 h2 a3 h3 a4 h4 a5 h5 a6 h6 a7 h7 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, h4.read_unread, h5.read_unread, h6.read_unread, h7.read_unread,
    View.ld_unit_zero (S := S1x17x256x256) hz4, View.ld_unit_zero (S := S1x1) hz2]

/-- A middle point, total 1 (the count of positive targets): the point's contribution added to what the point before left. -/
theorem middle_1 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : ¬cond0_1 i) (x0 x1 : Vec F S1x17x256x256 .f32) (xs0 xs1 xs2 xs3 : Vec F S1x1 .f32) :
    sout0_B_1 c i a1 h1 a2 h2 a3 h3 a4 h4 a5 h5 a6 h6 a7 h7 hc0 hc1 x0 x1 xs0 xs1 xs2 xs3 = k0_pay14 (k0_pay10 x1) xs1 := by
  unfold sout0_B_1
  rw [View.read_writes_eq_canon _ _ _ (scover0_B_1 c i a1 h1 a2 h2 a3 h3 a4 h4 a5 h5 a6 h6 a7 h7 hc0 hc1 x0 x1 xs0 xs1 xs2 xs3)]
  unfold kernelRun0_B
  dsimp only
  sl_unfold_words
  rw [View.canon_unit_zero hz2]
  simp only [View.readAt_eq_ld, h1.read_unread, h2.read_unread, h4.read_unread, h5.read_unread, h6.read_unread, h7.read_unread,
    View.ld_unit_zero (S := S1x17x256x256) hz4, View.ld_unit_zero (S := S1x1) hz2]

/-- The last point, total 1 (the count of positive targets): the point's contribution added to what the point before left. -/
theorem last_1 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : cond0_1 i) (x0 x1 : Vec F S1x17x256x256 .f32) (xs0 xs1 xs2 xs3 : Vec F S1x1 .f32) :
    sout0_C_1 c i a1 h1 a2 h2 a3 h3 a4 h4 a5 h5 a6 h6 a7 h7 hc0 hc1 x0 x1 xs0 xs1 xs2 xs3 = k0_pay14 (k0_pay10 x1) xs1 := by
  unfold sout0_C_1
  rw [View.read_writes_eq_canon _ _ _ (scover0_C_1 c i a1 h1 a2 h2 a3 h3 a4 h4 a5 h5 a6 h6 a7 h7 hc0 hc1 x0 x1 xs0 xs1 xs2 xs3)]
  unfold kernelRun0_C
  dsimp only
  sl_unfold_words
  rw [View.canon_unit_zero hz2]
  simp only [View.readAt_eq_ld, h1.read_unread, h2.read_unread, h4.read_unread, h5.read_unread, h6.read_unread, h7.read_unread,
    View.ld_unit_zero (S := S1x17x256x256) hz4, View.ld_unit_zero (S := S1x1) hz2]

/-- First point, total 2 (the sum of distances where some channel's target is positive): zeroed, then the point's contribution added to the zero read back. -/
theorem first_2 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : cond0_0 i) (hc1 : ¬cond0_1 i) (x0 x1 : Vec F S1x17x256x256 .f32) :
    sout0_A_2 c i a1 h1 a2 h2 a3 h3 a4 h4 a5 h5 a6 h6 a7 h7 hc0 hc1 x0 x1 = k0_pay15 (k0_pay12 x0 x1) (k0_pay4 (F := F)) := by
  unfold sout0_A_2
  rw [View.read_writes_eq_canon _ _ _ (scover0_A_2 c i a1 h1 a2 h2 a3 h3 a4 h4 a5 h5 a6 h6 a7 h7 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, h4.read_unread, h5.read_unread, h6.read_unread, h7.read_unread,
    View.ld_unit_zero (S := S1x17x256x256) hz4, View.ld_unit_zero (S := S1x1) hz2]

/-- A middle point, total 2 (the sum of distances where some channel's target is positive): the point's contribution added to what the point before left. -/
theorem middle_2 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : ¬cond0_1 i) (x0 x1 : Vec F S1x17x256x256 .f32) (xs0 xs1 xs2 xs3 : Vec F S1x1 .f32) :
    sout0_B_2 c i a1 h1 a2 h2 a3 h3 a4 h4 a5 h5 a6 h6 a7 h7 hc0 hc1 x0 x1 xs0 xs1 xs2 xs3 = k0_pay15 (k0_pay12 x0 x1) xs2 := by
  unfold sout0_B_2
  rw [View.read_writes_eq_canon _ _ _ (scover0_B_2 c i a1 h1 a2 h2 a3 h3 a4 h4 a5 h5 a6 h6 a7 h7 hc0 hc1 x0 x1 xs0 xs1 xs2 xs3)]
  unfold kernelRun0_B
  dsimp only
  sl_unfold_words
  rw [View.canon_unit_zero hz2]
  simp only [View.readAt_eq_ld, h1.read_unread, h2.read_unread, h4.read_unread, h5.read_unread, h6.read_unread, h7.read_unread,
    View.ld_unit_zero (S := S1x17x256x256) hz4, View.ld_unit_zero (S := S1x1) hz2]

/-- The last point, total 2 (the sum of distances where some channel's target is positive): the point's contribution added to what the point before left. -/
theorem last_2 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : cond0_1 i) (x0 x1 : Vec F S1x17x256x256 .f32) (xs0 xs1 xs2 xs3 : Vec F S1x1 .f32) :
    sout0_C_2 c i a1 h1 a2 h2 a3 h3 a4 h4 a5 h5 a6 h6 a7 h7 hc0 hc1 x0 x1 xs0 xs1 xs2 xs3 = k0_pay15 (k0_pay12 x0 x1) xs2 := by
  unfold sout0_C_2
  rw [View.read_writes_eq_canon _ _ _ (scover0_C_2 c i a1 h1 a2 h2 a3 h3 a4 h4 a5 h5 a6 h6 a7 h7 hc0 hc1 x0 x1 xs0 xs1 xs2 xs3)]
  unfold kernelRun0_C
  dsimp only
  sl_unfold_words
  rw [View.canon_unit_zero hz2]
  simp only [View.readAt_eq_ld, h1.read_unread, h2.read_unread, h4.read_unread, h5.read_unread, h6.read_unread, h7.read_unread,
    View.ld_unit_zero (S := S1x17x256x256) hz4, View.ld_unit_zero (S := S1x1) hz2]

/-- First point, total 3 (the scaled count of pixels where some channel's target is positive): zeroed, then the point's contribution added to the zero read back. -/
theorem first_3 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : cond0_0 i) (hc1 : ¬cond0_1 i) (x0 x1 : Vec F S1x17x256x256 .f32) :
    sout0_A_3 c i a1 h1 a2 h2 a3 h3 a4 h4 a5 h5 a6 h6 a7 h7 hc0 hc1 x0 x1 = k0_pay16 (k0_pay11 x1) (k0_pay5 (F := F)) := by
  unfold sout0_A_3
  rw [View.read_writes_eq_canon _ _ _ (scover0_A_3 c i a1 h1 a2 h2 a3 h3 a4 h4 a5 h5 a6 h6 a7 h7 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, h4.read_unread, h5.read_unread, h6.read_unread, h7.read_unread,
    View.ld_unit_zero (S := S1x17x256x256) hz4, View.ld_unit_zero (S := S1x1) hz2]

/-- A middle point, total 3 (the scaled count of pixels where some channel's target is positive): the point's contribution added to what the point before left. -/
theorem middle_3 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : ¬cond0_1 i) (x0 x1 : Vec F S1x17x256x256 .f32) (xs0 xs1 xs2 xs3 : Vec F S1x1 .f32) :
    sout0_B_3 c i a1 h1 a2 h2 a3 h3 a4 h4 a5 h5 a6 h6 a7 h7 hc0 hc1 x0 x1 xs0 xs1 xs2 xs3 = k0_pay16 (k0_pay11 x1) xs3 := by
  unfold sout0_B_3
  rw [View.read_writes_eq_canon _ _ _ (scover0_B_3 c i a1 h1 a2 h2 a3 h3 a4 h4 a5 h5 a6 h6 a7 h7 hc0 hc1 x0 x1 xs0 xs1 xs2 xs3)]
  unfold kernelRun0_B
  dsimp only
  sl_unfold_words
  rw [View.canon_unit_zero hz2]
  simp only [View.readAt_eq_ld, h1.read_unread, h2.read_unread, h4.read_unread, h5.read_unread, h6.read_unread, h7.read_unread,
    View.ld_unit_zero (S := S1x17x256x256) hz4, View.ld_unit_zero (S := S1x1) hz2]

/-- The last point, total 3 (the scaled count of pixels where some channel's target is positive): the point's contribution added to what the point before left. -/
theorem last_3 (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : cond0_1 i) (x0 x1 : Vec F S1x17x256x256 .f32) (xs0 xs1 xs2 xs3 : Vec F S1x1 .f32) :
    sout0_C_3 c i a1 h1 a2 h2 a3 h3 a4 h4 a5 h5 a6 h6 a7 h7 hc0 hc1 x0 x1 xs0 xs1 xs2 xs3 = k0_pay16 (k0_pay11 x1) xs3 := by
  unfold sout0_C_3
  rw [View.read_writes_eq_canon _ _ _ (scover0_C_3 c i a1 h1 a2 h2 a3 h3 a4 h4 a5 h5 a6 h6 a7 h7 hc0 hc1 x0 x1 xs0 xs1 xs2 xs3)]
  unfold kernelRun0_C
  dsimp only
  sl_unfold_words
  rw [View.canon_unit_zero hz2]
  simp only [View.readAt_eq_ld, h1.read_unread, h2.read_unread, h4.read_unread, h5.read_unread, h6.read_unread, h7.read_unread,
    View.ld_unit_zero (S := S1x17x256x256) hz4, View.ld_unit_zero (S := S1x1) hz2]

/-- The last point's output block: half the sum of the two quotients of the four totals as that point leaves them. -/
theorem last_out (c : Dev nD) (i : grid0.Coords) (a1 : Memref sig .tc .vmem S1x17x256x256 .f32) (h1 : a1.IsWhole)
    (a2 : Memref sig .tc .vmem S1x17x256x256 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : cond0_1 i) (x0 x1 : Vec F S1x17x256x256 .f32) (xs0 xs1 xs2 xs3 : Vec F S1x1 .f32) :
    out0_C_2 c i a1 h1 a2 h2 a3 h3 a4 h4 a5 h5 a6 h6 a7 h7 hc0 hc1 x0 x1 xs0 xs1 xs2 xs3
      = k0_pay1 (k0_pay13 (k0_pay9 x0 x1) xs0) (k0_pay14 (k0_pay10 x1) xs1) (k0_pay15 (k0_pay12 x0 x1) xs2) (k0_pay16 (k0_pay11 x1) xs3) := by
  unfold out0_C_2
  rw [View.read_writes_eq_canon _ _ _ (cover0_C_2 c i a1 h1 a2 h2 a3 h3 a4 h4 a5 h5 a6 h6 a7 h7 hc0 hc1 x0 x1 xs0 xs1 xs2 xs3)]
  unfold kernelRun0_C
  dsimp only
  sl_unfold_words
  rw [View.canon_unit_zero hz2]
  simp only [View.readAt_eq_ld, h1.read_unread, h2.read_unread, h4.read_unread, h5.read_unread, h6.read_unread, h7.read_unread,
    View.ld_unit_zero (S := S1x17x256x256) hz4, View.ld_unit_zero (S := S1x1) hz2, View.readCov_unit_zero (S := S1x1) _ hz2]

end Cert.KernelIdeal.Means

end
-- ==== Proof.Consts.lean ====
/-
  The float constants the two programs spell, as the extended reals their bit patterns denote.
-/
import Idealize.ShloMosaic.PureOps.Ideal

noncomputable section

namespace Cert.Consts

open Idealize.ShloMosaic

/-- `+0.0` denotes 0. -/
theorem ofBits_zero : Ideal.ofBits .f32 0x00000000#32 = 0 := by
  simp [Ideal.ofBits, Ideal.ieee]

/-- `1.0` denotes 1. -/
theorem ofBits_one : Ideal.ofBits .f32 0x3F800000#32 = 1 := by
  simp [Ideal.ofBits, Ideal.ieee, -EReal.coe_mul]; norm_num

/-- `2.0` denotes the real 2. -/
theorem ofBits_two : Ideal.ofBits .f32 0x40000000#32 = ((2 : ℝ) : EReal) := by
  simp [Ideal.ofBits, Ideal.ieee, -EReal.coe_mul]; norm_num

/-- `0.5` denotes the real 1/2. -/
theorem ofBits_half : Ideal.ofBits .f32 0x3F000000#32 = ((1 / 2 : ℝ) : EReal) := by
  simp [Ideal.ofBits, Ideal.ieee, -EReal.coe_mul]; norm_num

/-- `17.0` denotes the real 17. -/
theorem ofBits_seventeen : Ideal.ofBits .f32 0x41880000#32 = ((17 : ℝ) : EReal) := by
  simp [Ideal.ofBits, Ideal.ieee, -EReal.coe_mul]; norm_num

/-- The pattern of `-inf` denotes the bottom element. -/
theorem ofBits_neg_inf : Ideal.ofBits .f32 0xFF800000#32 = ⊥ := by
  simp [Ideal.ofBits, Ideal.ieee]

end Cert.Consts

end
-- ==== Proof.LibSums.lean ====
/-
  Sums over the index set of a literal shape, split by coordinates, and the counting facts a masked mean needs.

  * A sum over the indices of a rank-3 or rank-4 shape is the iterated sum over its coordinates.
  * The coercion of a finite sum of reals to the extended reals is the sum of the coercions.
  * Summing, as 32-bit words, the widened bits of a mask over ALL of its indices counts the set bits, as long as the
    number of indices is below 2^32; read as a signed integer the count is itself when it is below 2^31.
  * An or-fold of one-bit words is 1 exactly when some word is 1; a max-fold, from the bottom element, of the
    extended reals 1 (bit set) and 0 (bit clear) is above zero exactly when some bit is set.
-/
import Idealize.ShloMosaic.Lib.ValueIdx
import Idealize.ShloMosaic.Lib.StableHlo.Predicate
import Idealize.ShloMosaic.PureOps.Reduce
import Idealize.ShloMosaic.PureOps.Ideal.Laws

noncomputable section

open scoped BigOperators

namespace Cert.LibSums

open Idealize.ShloMosaic Idealize.ShloMosaic.ValueIdx

/-! ## Sums by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The number of indices of a rank-4 shape is the product of its extents. -/
theorem card_idx4 {n0 n1 n2 n3 : Nat} : Fintype.card (⟨4, ![n0, n1, n2, n3]⟩ : Shape).Idx = n0 * n1 * n2 * n3 := by
  rw [Fintype.card_congr (idxEquiv4 (n0 := n0) (n1 := n1) (n2 := n2) (n3 := n3))]
  simp [Fintype.card_prod, Nat.mul_assoc]

/-! ## Reals inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Counting the set bits of a mask -/

/-- Summing the widened bits of a mask over all its indices (a reduce over every axis, to rank 0) counts the set bits,
    when the mask has fewer than 2^32 indices. -/
theorem toNat_reduce_count_total {s : Shape} {axes : List (Fin s.rank)} (mask : IVec s 1) (hw : 1 < 32)
    (h : s.ReducesTo axes ⟨0, ![]⟩) {u : Shape} (hu : 0 < u.numel) (hcard : Fintype.card s.Idx < 2 ^ 32)
    (j : (⟨0, ![]⟩ : Shape).Idx) :
    (Host.reduce IntOp.addi (extui 32 mask hw) (constantI u 32 0#32) h hu j).toNat
      = (Finset.univ.filter (fun i : s.Idx => mask i = 1#1)).card := by
  classical
  rw [Host.reduce_eq_fold]
  have hall : (Finset.univ.filter fun i : s.Idx => h.drop i = j) = Finset.univ :=
    Finset.filter_true_of_mem fun i _ => funext fun b => b.elim0
  rw [hall]
  have hval : ∀ i, (extui 32 mask hw i).toNat = if mask i = 1#1 then 1 else 0 :=
    fun i => StableHlo.Predicate.toNat_setWidth_bit (mask i)
  have hsum : ∑ i : s.Idx, (extui 32 mask hw i).toNat = (Finset.univ.filter (fun i : s.Idx => mask i = 1#1)).card := by
    rw [Finset.card_filter]; exact Finset.sum_congr rfl fun i _ => hval i
  show (Finset.fold IntOp.addi 0#32 (extui 32 mask hw) Finset.univ).toNat = _
  rw [StableHlo.Predicate.toNat_fold_addi _ _ (by
    rw [hsum]; exact lt_of_le_of_lt (Finset.card_le_univ _) (by simpa using hcard)), hsum]

/-- A 32-bit word whose unsigned value is a count below 2^31 reads, as a signed integer cast to the reals, as that
    count. -/
theorem toInt_cast_of_toNat {w : BitVec 32} {n : ℕ} (hw : w.toNat = n) (hn : n < 2 ^ 31) : ((w.toInt : ℝ)) = (n : ℝ) := by
  rw [StableHlo.Predicate.toInt_eq_toNat_of_lt (by omega), hw]; simp

/-- A widened bit read as a signed integer, as a real: 1 when the bit is set, 0 otherwise. -/
theorem bit_toInt (b : BitVec 1) : (((b.setWidth 32).toInt : ℝ)) = if b = 1#1 then 1 else 0 := by
  rcases BitVec.eq_zero_or_eq_one b with rfl | rfl
  · simp
  · simp

/-! ## "Some bit is set" -/

/-- An or-fold of one-bit words from 0 is 1 exactly when some word is 1. -/
theorem fold_ori_eq_one {ι : Type*} (S : Finset ι) (f : ι → BitVec 1) :
    S.fold IntOp.ori 0#1 f = 1#1 ↔ ∃ i ∈ S, f i = 1#1 := by
  classical
  induction S using Finset.induction_on with
  | empty => simp
  | insert a S ha ih =>
    rw [Finset.fold_insert ha]
    have hor : ∀ x y : BitVec 1, IntOp.ori x y = 1#1 ↔ x = 1#1 ∨ y = 1#1 := by decide
    rw [hor, ih]
    constructor
    · rintro (h | ⟨i, hi, h⟩)
      · exact ⟨a, Finset.mem_insert_self _ _, h⟩
      · exact ⟨i, Finset.mem_insert_of_mem hi, h⟩
    · rintro ⟨i, hi, h⟩
      rcases Finset.mem_insert.1 hi with rfl | hi
      · exact Or.inl h
      · exact Or.inr ⟨i, hi, h⟩

/-- A max-fold from the bottom element of the extended reals "1 where the bit is set, 0 where it is clear" is above
    zero exactly when some bit is set. -/
theorem zero_lt_fold_max {ι : Type*} (S : Finset ι) (f : ι → BitVec 1) :
    (0 : EReal) < S.fold max (⊥ : EReal) (fun i => if f i = 1#1 then (1 : EReal) else 0) ↔ ∃ i ∈ S, f i = 1#1 := by
  classical
  induction S using Finset.induction_on with
  | empty => simp
  | insert a S ha ih =>
    rw [Finset.fold_insert ha, lt_max_iff, ih]
    constructor
    · rintro (h | ⟨i, hi, h⟩)
      · refine ⟨a, Finset.mem_insert_self _ _, ?_⟩
        by_contra hne
        rw [if_neg hne] at h
        exact lt_irrefl _ h
      · exact ⟨i, Finset.mem_insert_of_mem hi, h⟩
    · rintro ⟨i, hi, h⟩
      rcases Finset.mem_insert.1 hi with rfl | hi
      · left; rw [if_pos h]; exact zero_lt_one
      · exact Or.inr ⟨i, hi, h⟩

end Cert.LibSums

end
-- ==== Proof.Spec.lean ====
/-
  The specification: what both programs compute, over the extended reals.

  The input `X` and the target `T` are [32, 17, 256, 256] arrays (batch, channel, row, column). With `pos t` the bit
  "t is above zero" and `dist a t` the distance |a - t|, batch element `b` contributes

    * `part1 X T b`: the sum over (row, column, channel) of the distance where the target is positive (zero elsewhere),
    * `part2 T b`:   the number of (row, column, channel) with a positive target,
    * `part3 X T b`: the sum, over the (row, column) at which SOME channel's target is positive, of the distances summed
                      over the channels,
    * `part4 T b`:   seventeen times the number of such (row, column),

  and the result is half of (Σ part1 / Σ part2 + Σ part3 / Σ part4), the sums over the 32 batch elements.
  `upTo f n` is the running total of `f` over the batch elements 0 … n.
-/
import proofs.«400264_j44032004718828_4_alg».proof.Proof.LibSums
import Idealize.ShloMosaic.Lib.ValueIdx
import Idealize.ShloMosaic.PureOps.Ideal.Laws

noncomputable section

open scoped BigOperators

namespace Cert.Means

open Idealize.ShloMosaic Idealize.ShloMosaic.ValueIdx

/-- The bit "the target value is above zero". -/
def pos (t : EReal) : BitVec 1 := Ideal.cmp .ogt t 0

/-- The distance between an input value and a target value. -/
def dist (a t : EReal) : EReal := max (a - t) (-(a - t))

/-- A bit as an extended real: 1 when set, 0 when clear. -/
def ind (b : BitVec 1) : EReal := Scalar.select b (1 : EReal) 0

/-- The bit "some channel's target is positive", as a maximum: the maximum over the channels of the positive bits as
    extended reals, from the bottom element, is above zero. -/
def anyPos (t : Fin 17 → EReal) : BitVec 1 :=
  Ideal.cmp .ogt ((Finset.univ : Finset (Fin 17)).fold max (⊥ : EReal) (fun c => ind (pos (t c)))) 0

/-- A widened bit converted to a float is the bit as an extended real. -/
theorem sitofp_bit (b : BitVec 1) : (FloatOps.sitofp (F := Ideal) .f32 (b.setWidth 32) : EReal) = ind b := by
  show (((b.setWidth 32).toInt : ℝ) : EReal) = _
  rcases BitVec.eq_zero_or_eq_one b with rfl | rfl
  · simp [ind, Scalar.select]
  · simp [ind, Scalar.select]

/-- `Scalar.select` respects equality of each of its three operands. -/
theorem select_congr {α : Type} {c c' : BitVec 1} {a a' b b' : α} (hc : c = c') (ha : a = a') (hb : b = b') :
    Scalar.select c a b = Scalar.select c' a' b' := by subst hc ha hb; rfl

/-- An array of the two float arguments' shape. -/
abbrev Arr : Type := (⟨4, ![32, 17, 256, 256]⟩ : Shape).Idx → EReal

/-- Batch element `b`'s masked sum of distances. -/
def part1 (X T : Arr) (b : Fin 32) : EReal :=
  ∑ p : Fin 256, ∑ q : Fin 256, ∑ c : Fin 17,
    Scalar.select (pos (T (ix4 b c p q))) (dist (X (ix4 b c p q)) (T (ix4 b c p q))) 0

/-- Batch element `b`'s count of positive targets. -/
def part2 (T : Arr) (b : Fin 32) : EReal :=
  ∑ p : Fin 256, ∑ q : Fin 256, ∑ c : Fin 17, ind (pos (T (ix4 b c p q)))

/-- Batch element `b`'s sum of distances over the pixels at which some channel's target is positive. -/
def part3 (X T : Arr) (b : Fin 32) : EReal :=
  ∑ p : Fin 256, ∑ q : Fin 256,
    Scalar.select (anyPos fun c => T (ix4 b c p q)) (∑ c : Fin 17, dist (X (ix4 b c p q)) (T (ix4 b c p q))) 0

/-- Seventeen times batch element `b`'s count of pixels at which some channel's target is positive. -/
def part4 (T : Arr) (b : Fin 32) : EReal :=
  (∑ p : Fin 256, ∑ q : Fin 256, ind (anyPos fun c => T (ix4 b c p q))) * ((17 : ℝ) : EReal)

/-- The result: half the sum of the two masked means. -/
def value (X T : Arr) : EReal :=
  (Ideal.div (∑ b, part1 X T b) (∑ b, part2 T b) + Ideal.div (∑ b, part3 X T b) (∑ b, part4 T b)) * ((1 / 2 : ℝ) : EReal)

/-! ## Running totals over the batch -/

/-- The total of `f` over the batch elements `0 … n`. -/
def upTo (f : Fin 32 → EReal) (n : ℕ) : EReal := ∑ b : Fin 32, if b.val ≤ n then f b else 0

theorem upTo_zero (f : Fin 32 → EReal) : upTo f 0 = f 0 := by
  unfold upTo
  rw [Finset.sum_eq_single (0 : Fin 32)]
  · simp
  · intro b _ hb
    have : ¬ b.val ≤ 0 := fun h => hb (Fin.ext (by simpa using h))
    rw [if_neg this]
  · intro h; exact absurd (Finset.mem_univ _) h

theorem upTo_succ (f : Fin 32 → EReal) (n : ℕ) (h : n + 1 < 32) : upTo f (n + 1) = upTo f n + f ⟨n + 1, h⟩ := by
  unfold upTo
  have hpt : ∀ b : Fin 32, (if b.val ≤ n + 1 then f b else 0)
      = (if b.val ≤ n then f b else 0) + (if b = ⟨n + 1, h⟩ then f b else 0) := by
    intro b
    by_cases h1 : b.val ≤ n
    · have h2 : b ≠ ⟨n + 1, h⟩ := fun e => by rw [e] at h1; simp at h1
      rw [if_pos h1, if_pos (by omega), if_neg h2, add_zero]
    · by_cases h2 : b = ⟨n + 1, h⟩
      · subst h2; rw [if_neg h1, if_pos (le_refl _), if_pos rfl, zero_add]
      · have h3 : ¬ b.val ≤ n + 1 := fun h3 => h2 (Fin.ext (by simp; omega))
        rw [if_neg h1, if_neg h3, if_neg h2, add_zero]
  rw [Finset.sum_congr rfl fun b _ => hpt b, Finset.sum_add_distrib, Finset.sum_ite_eq' Finset.univ (⟨n + 1, h⟩ : Fin 32) f]
  simp

theorem upTo_last (f : Fin 32 → EReal) : upTo f 31 = ∑ b, f b := by
  unfold upTo
  exact Finset.sum_congr rfl fun b _ => if_pos (by have := b.isLt; omega)

end Cert.Means

end
-- ==== Proof.Reduce.lean ====
/-
  The body's three reductions read at an index, over the extended reals: the sum over the channels at a pixel, the
  maximum over the channels at a pixel, and the sum over all pixels of a [256, 256] vector taken along each row first and
  then down the column of row sums, the one value kept as a [1, 1] block.
-/
import proofs.«400264_j44032004718828_4_alg».proof.Proof.Gen.KernelIdeal.Skeleton
import proofs.«400264_j44032004718828_4_alg».proof.Proof.Consts
import proofs.«400264_j44032004718828_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Means

open Idealize.ShloMosaic Idealize.ShloMosaic.ValueIdx Cert.KernelIdeal Cert.KernelIdeal.Gen Cert.Means

/-- The one index of a one-element block. -/
abbrev o : S1x1.Idx := ix2 (0 : Fin 1) (0 : Fin 1)

/-! ## The three reductions -/

/-- The sum over the channels, at a pixel. -/
theorem sum_channels (v : FVec Ideal S17x256x256 .f32) (r : S17x256x256.Reduces [0] S256x256) (hφ : FKind.Formats .f32)
    (hacc : (0x00000000#32 : BitVec 32) = 0x00000000#32) (p q : Fin 256) :
    multiReduction .add [0] S256x256 v 0x00000000#32 r hφ hacc (ix2 p q) = ∑ c : Fin 17, v (ix3 c p q) := by
  refine (Ideal.multiReduction_add_single v 0x00000000#32 r hφ hacc (ix2 p q)).trans ?_
  show ∑ c : Fin 17, v (r.lift (ix2 p q) c) = _
  refine Finset.sum_congr rfl fun c _ => congrArg v (funext fun a => Fin.ext ?_)
  match a with | ⟨0, _⟩ => rfl | ⟨1, _⟩ => rfl | ⟨2, _⟩ => rfl

/-- The maximum over the channels from the bottom element, at a pixel. -/
theorem max_channels (v : FVec Ideal S17x256x256 .f32) (r : S17x256x256.Reduces [0] S256x256) (hφ : FKind.Formats .f32)
    (hacc : (0xFF800000#32 : BitVec 32) = 0xFF800000#32) (p q : Fin 256) :
    multiReduction .maximumf [0] S256x256 v 0xFF800000#32 r hφ hacc (ix2 p q)
      = (Finset.univ : Finset (Fin 17)).fold max (⊥ : EReal) (fun c => v (ix3 c p q)) := by
  refine (Ideal.multiReduction_maximumf_single v 0xFF800000#32 r hφ hacc (ix2 p q)).trans ?_
  show Finset.fold max (Ideal.ofBits .f32 0xFF800000#32) (v ∘ r.lift (ix2 p q)) (Finset.univ : Finset (Fin 17)) = _
  rw [Cert.Consts.ofBits_neg_inf]
  refine congrArg (fun f => Finset.fold max (⊥ : EReal) f (Finset.univ : Finset (Fin 17))) (funext fun c => ?_)
  refine congrArg v (funext fun a => Fin.ext ?_)
  match a with | ⟨0, _⟩ => rfl | ⟨1, _⟩ => rfl | ⟨2, _⟩ => rfl

/-- The sum over all pixels of a [256, 256] vector: along each row, then down the column of row sums, the one value
    kept as a [1, 1] block. -/
theorem sum_pixels (v : FVec Ideal S256x256 .f32) (r1 : S256x256.Reduces [1] S256) (c1 : S256.ShapeCasts S256x1)
    (r2 : S256x1.Reduces [0] S1) (c2 : S1.ShapeCasts S1x1) (hφ hφ' : FKind.Formats .f32)
    (hacc hacc' : (0x00000000#32 : BitVec 32) = 0x00000000#32) :
    shapeCast S1x1 (multiReduction .add [0] S1 (shapeCast S256x1 (multiReduction .add [1] S256 v 0x00000000#32 r1 hφ hacc) c1)
      0x00000000#32 r2 hφ' hacc') c2 o = ∑ p : Fin 256, ∑ q : Fin 256, v (ix2 p q) := by
  refine (shapeCast_a_1a_apply _ c2 (0 : Fin 1) (0 : Fin 1)).trans ?_
  refine (Ideal.multiReduction_add_single _ 0x00000000#32 r2 hφ' hacc' (ix1 (0 : Fin 1))).trans ?_
  show ∑ p : Fin 256, shapeCast S256x1 (multiReduction .add [1] S256 v 0x00000000#32 r1 hφ hacc) c1 (r2.lift (ix1 (0 : Fin 1)) p) = _
  refine Finset.sum_congr rfl fun p _ => ?_
  have e : r2.lift (ix1 (0 : Fin 1)) p = ix2 p (0 : Fin 1) := funext fun a => Fin.ext (by
    match a with | ⟨0, _⟩ => rfl | ⟨1, _⟩ => rfl)
  refine (congrArg (shapeCast S256x1 (multiReduction .add [1] S256 v 0x00000000#32 r1 hφ hacc) c1) e).trans ?_
  refine (shapeCast_apply _ c1 (ix2 p (0 : Fin 1)) (ix1 p) (by
    rw [Shape.rowMajor_val_one, Shape.rowMajor_val_two]; show p.val = p.val * 1 + 0; omega)).trans ?_
  refine (Ideal.multiReduction_add_single v 0x00000000#32 r1 hφ hacc (ix1 p)).trans ?_
  show ∑ q : Fin 256, v (r1.lift (ix1 p) q) = _
  refine Finset.sum_congr rfl fun q _ => congrArg v (funext fun a => Fin.ext ?_)
  match a with | ⟨0, _⟩ => rfl | ⟨1, _⟩ => rfl

end Cert.KernelIdeal.Means

end
-- ==== Proof.Local.lean ====
/-
  The body's arithmetic read at an index, over the extended reals.

  One grid point sees the block of the input and the block of the target of one batch element, both [1, 17, 256, 256].
  The body forms each of the point's four contributions by reducing over the channels first, then along each row, then
  down the column of row sums, keeping the one value as a [1, 1] block; a pixel's "some channel's target is positive" bit
  is taken as "the maximum over the channels of (1 where positive, 0 elsewhere) is above zero". Read at the one index of
  the [1, 1] block these are the specification's `part1 … part4` of the batch element whose block the point sees, and
  each running total's update is "what was there, plus the part".
-/
import proofs.«400264_j44032004718828_4_alg».proof.Proof.Reduce

noncomputable section

open scoped BigOperators

namespace Cert.KernelIdeal.Means

open Idealize.ShloMosaic Idealize.ShloMosaic.ValueIdx Cert.KernelIdeal Cert.KernelIdeal.Gen Cert.Means

/-! ## The payloads at an index -/

variable (x0 x1 : Vec Ideal S1x17x256x256 .f32)

theorem pay6_apply (c : Fin 17) (p q : Fin 256) : k0_pay6 (F := Ideal) x1 (ix3 c p q) = x1 (ix4 (0 : Fin 1) c p q) :=
  shapeCast_1abc_abc_apply x1 _ c p q

theorem pay7_apply (c : Fin 17) (p q : Fin 256) : k0_pay7 (F := Ideal) x1 (ix3 c p q) = pos (x1 (ix4 (0 : Fin 1) c p q)) := by
  show Ideal.cmp .ogt (k0_pay6 (F := Ideal) x1 (ix3 c p q)) (Ideal.ofBits .f32 0x00000000#32) = _
  rw [pay6_apply, Cert.Consts.ofBits_zero]; rfl

theorem pay8_apply (c : Fin 17) (p q : Fin 256) :
    k0_pay8 (F := Ideal) x0 x1 (ix3 c p q) = dist (x0 (ix4 (0 : Fin 1) c p q)) (x1 (ix4 (0 : Fin 1) c p q)) := by
  show max (shapeCast S17x256x256 x0 shapeCasts_S1x17x256x256_S17x256x256 (ix3 c p q) - k0_pay6 (F := Ideal) x1 (ix3 c p q))
    (-(shapeCast S17x256x256 x0 shapeCasts_S1x17x256x256_S17x256x256 (ix3 c p q) - k0_pay6 (F := Ideal) x1 (ix3 c p q))) = _
  rw [pay6_apply, shapeCast_1abc_abc_apply]; rfl

/-- The point's masked sum of distances. -/
theorem pay9_apply : k0_pay9 (F := Ideal) x0 x1 o
    = ∑ p : Fin 256, ∑ q : Fin 256, ∑ c : Fin 17,
        Scalar.select (pos (x1 (ix4 (0 : Fin 1) c p q))) (dist (x0 (ix4 (0 : Fin 1) c p q)) (x1 (ix4 (0 : Fin 1) c p q))) 0 := by
  unfold k0_pay9
  refine (sum_pixels _ _ _ _ _ _ _ _ _).trans ?_
  refine Finset.sum_congr rfl fun p _ => Finset.sum_congr rfl fun q _ => ?_
  refine (sum_channels _ _ _ _ p q).trans ?_
  refine Finset.sum_congr rfl fun c _ => ?_
  refine (select_apply _ _ _ (ix3 c p q)).trans ?_
  exact select_congr (pay7_apply x1 c p q) (pay8_apply x0 x1 c p q) ((broadcast_apply _ _).trans Cert.Consts.ofBits_zero)

/-- The point's count of positive targets. -/
theorem pay10_apply : k0_pay10 (F := Ideal) x1 o
    = ∑ p : Fin 256, ∑ q : Fin 256, ∑ c : Fin 17, ind (pos (x1 (ix4 (0 : Fin 1) c p q))) := by
  unfold k0_pay10
  refine (sum_pixels _ _ _ _ _ _ _ _ _).trans ?_
  refine Finset.sum_congr rfl fun p _ => Finset.sum_congr rfl fun q _ => ?_
  refine (sum_channels _ _ _ _ p q).trans ?_
  refine Finset.sum_congr rfl fun c _ => ?_
  refine (sitofp_apply (F := Ideal) _ (ix3 c p q)).trans ?_
  refine (congrArg (fun w : BitVec 32 => FloatOps.sitofp (F := Ideal) .f32 w)
    ((extui_apply _ _ (ix3 c p q)).trans (congrArg (fun b : BitVec 1 => b.setWidth 32) (pay7_apply x1 c p q)))).trans ?_
  exact sitofp_bit _

/-- A pixel's bit "some channel's target is positive". -/
theorem pay11_apply (p q : Fin 256) : k0_pay11 (F := Ideal) x1 (ix2 p q) = anyPos (fun c => x1 (ix4 (0 : Fin 1) c p q)) := by
  unfold k0_pay11
  refine (cmpf_apply (F := Ideal) _ _ _ (ix2 p q)).trans ?_
  refine (congrArg₂ (FloatOps.cmpf (F := Ideal) (φ := .f32) .ogt) (max_channels _ _ _ _ p q)
    ((broadcast_apply _ _).trans Cert.Consts.ofBits_zero)).trans ?_
  unfold anyPos
  show Ideal.cmp .ogt _ 0 = Ideal.cmp .ogt _ 0
  refine congrArg (fun f => Ideal.cmp .ogt (Finset.fold max (⊥ : EReal) f (Finset.univ : Finset (Fin 17))) 0) (funext fun c => ?_)
  refine (select_apply _ _ _ (ix3 c p q)).trans ?_
  exact select_congr (pay7_apply x1 c p q) ((broadcast_apply _ _).trans Cert.Consts.ofBits_one)
    ((broadcast_apply _ _).trans Cert.Consts.ofBits_zero)

/-- A pixel's distances summed over the channels, kept where some channel's target is positive. -/
theorem pay12_apply (p q : Fin 256) : k0_pay12 (F := Ideal) x0 x1 (ix2 p q)
    = Scalar.select (anyPos (fun c => x1 (ix4 (0 : Fin 1) c p q)))
        (∑ c : Fin 17, dist (x0 (ix4 (0 : Fin 1) c p q)) (x1 (ix4 (0 : Fin 1) c p q))) 0 := by
  unfold k0_pay12
  refine (select_apply _ _ _ (ix2 p q)).trans ?_
  exact select_congr (pay11_apply x1 p q)
    ((sum_channels _ _ _ _ p q).trans (Finset.sum_congr rfl fun c _ => pay8_apply x0 x1 c p q))
    ((broadcast_apply _ _).trans Cert.Consts.ofBits_zero)

/-! ## The running totals' updates and the output, at the one index -/

theorem pay13_apply (v17 v46 : FVec Ideal S1x1 .f32) : k0_pay13 (F := Ideal) v17 v46 o = v46 o + v17 o := by
  unfold k0_pay13
  refine (congrFun (shapeCast_self _ _) o).trans ?_
  exact addf_apply _ _ o

theorem pay14_apply (v24 v51 : FVec Ideal S1x1 .f32) : k0_pay14 (F := Ideal) v24 v51 o = v51 o + v24 o := by
  unfold k0_pay14
  refine (congrFun (shapeCast_self _ _) o).trans ?_
  exact addf_apply _ _ o

theorem pay15_apply (v33 : FVec Ideal S256x256 .f32) (v56 : FVec Ideal S1x1 .f32) :
    k0_pay15 (F := Ideal) v33 v56 o = v56 o + ∑ p : Fin 256, ∑ q : Fin 256, v33 (ix2 p q) := by
  unfold k0_pay15
  refine (congrFun (shapeCast_self _ _) o).trans ?_
  refine (addf_apply _ _ o).trans ?_
  exact congrArg (fun s => v56 o + s) (sum_pixels v33 _ _ _ _ _ _ _ _)

theorem pay16_apply (v30 : IVec S256x256 1) (v61 : FVec Ideal S1x1 .f32) :
    k0_pay16 (F := Ideal) v30 v61 o = v61 o + (∑ p : Fin 256, ∑ q : Fin 256, ind (v30 (ix2 p q))) * ((17 : ℝ) : EReal) := by
  unfold k0_pay16
  refine (congrFun (shapeCast_self _ _) o).trans ?_
  refine (addf_apply _ _ o).trans ?_
  refine congrArg (fun s => v61 o + s) ?_
  refine (mulf_apply _ _ o).trans ?_
  refine congrArg₂ (fun a b : EReal => a * b) ((sum_pixels _ _ _ _ _ _ _ _ _).trans ?_)
    ((broadcast_apply _ o).trans Cert.Consts.ofBits_seventeen)
  refine Finset.sum_congr rfl fun p _ => Finset.sum_congr rfl fun q _ => ?_
  refine (sitofp_apply (F := Ideal) _ (ix2 p q)).trans ?_
  refine (congrArg (fun w : BitVec 32 => FloatOps.sitofp (F := Ideal) .f32 w) (extui_apply _ _ (ix2 p q))).trans ?_
  exact sitofp_bit _

theorem pay1_apply (a b c d : FVec Ideal S1x1 .f32) :
    k0_pay1 (F := Ideal) a b c d o = (Ideal.div (a o) (b o) + Ideal.div (c o) (d o)) * ((1 / 2 : ℝ) : EReal) := by
  unfold k0_pay1
  refine (mulf_apply _ _ o).trans ?_
  refine congrArg₂ (fun a b : EReal => a * b) ?_ ((broadcast_apply _ o).trans Cert.Consts.ofBits_half)
  refine (addf_apply _ _ o).trans ?_
  exact congrArg₂ (fun a b : EReal => a + b) (divf_apply _ _ o) (divf_apply _ _ o)

theorem pay2_apply : k0_pay2 (F := Ideal) o = 0 := by
  unfold k0_pay2
  refine (congrFun (shapeCast_self _ _) o).trans ?_
  exact (broadcast_apply _ o).trans Cert.Consts.ofBits_zero
theorem pay3_apply : k0_pay3 (F := Ideal) o = 0 := by
  unfold k0_pay3
  refine (congrFun (shapeCast_self _ _) o).trans ?_
  exact (broadcast_apply _ o).trans Cert.Consts.ofBits_zero
theorem pay4_apply : k0_pay4 (F := Ideal) o = 0 := by
  unfold k0_pay4
  refine (congrFun (shapeCast_self _ _) o).trans ?_
  exact (broadcast_apply _ o).trans Cert.Consts.ofBits_zero
theorem pay5_apply : k0_pay5 (F := Ideal) o = 0 := by
  unfold k0_pay5
  refine (congrFun (shapeCast_self _ _) o).trans ?_
  exact (broadcast_apply _ o).trans Cert.Consts.ofBits_zero

/-! ## A point's updates, for the batch element whose blocks it sees -/

section Block
variable (X T : Arr) (b : Fin 32)
  (hx0 : ∀ (c : Fin 17) (p q : Fin 256), x0 (ix4 (0 : Fin 1) c p q) = X (ix4 b c p q))
  (hx1 : ∀ (c : Fin 17) (p q : Fin 256), x1 (ix4 (0 : Fin 1) c p q) = T (ix4 b c p q))
include hx0 hx1

theorem upd1 (v : FVec Ideal S1x1 .f32) : k0_pay13 (F := Ideal) (k0_pay9 (F := Ideal) x0 x1) v o = v o + part1 X T b := by
  refine (pay13_apply _ v).trans (congrArg (fun s => v o + s) ((pay9_apply x0 x1).trans ?_))
  unfold part1
  simp only [hx0, hx1]

theorem upd2 (v : FVec Ideal S1x1 .f32) : k0_pay14 (F := Ideal) (k0_pay10 (F := Ideal) x1) v o = v o + part2 T b := by
  refine (pay14_apply _ v).trans (congrArg (fun s => v o + s) ((pay10_apply x1).trans ?_))
  unfold part2
  simp only [hx1]

theorem upd3 (v : FVec Ideal S1x1 .f32) : k0_pay15 (F := Ideal) (k0_pay12 (F := Ideal) x0 x1) v o = v o + part3 X T b := by
  refine (pay15_apply _ v).trans (congrArg (fun s => v o + s) ?_)
  unfold part3
  refine Finset.sum_congr rfl fun p _ => Finset.sum_congr rfl fun q _ => (pay12_apply x0 x1 p q).trans ?_
  simp only [hx0, hx1]

theorem upd4 (v : FVec Ideal S1x1 .f32) : k0_pay16 (F := Ideal) (k0_pay11 (F := Ideal) x1) v o = v o + part4 T b := by
  refine (pay16_apply _ v).trans (congrArg (fun s => v o + s) ?_)
  unfold part4
  refine congrArg (fun s : EReal => s * ((17 : ℝ) : EReal)) ?_
  refine Finset.sum_congr rfl fun p _ => Finset.sum_congr rfl fun q _ => congrArg ind ((pay11_apply x1 p q).trans ?_)
  simp only [hx1]

end Block

end Cert.KernelIdeal.Means

end
-- ==== Proof.Chain.lean ====
/-
  The four running totals after each grid point, and the output block the last point writes.

  Grid point `t` sees the blocks of batch element `t` of the input and of the target. The first point zeroes each running
  total and adds its contribution; every later point adds its contribution to what the point before left. So after point
  `n` each total is the sum of the contributions of the batch elements `0 … n` (by induction on the point), and the output
  block the last point writes is the specification's value.
-/
import proofs.«400264_j44032004718828_4_alg».proof.Proof.Gen.KernelIdeal.Frame
import proofs.«400264_j44032004718828_4_alg».proof.Proof.Pieces
import proofs.«400264_j44032004718828_4_alg».proof.Proof.Local
import Idealize.ShloMosaic.Lib.Pipeline.Value

noncomputable section

open scoped BigOperators

namespace Cert.KernelIdeal.Means

open Idealize.ShloMosaic Idealize.ShloMosaic.TcCoe Idealize.SL.Sem Idealize.ShloMosaic.ValueIdx
open Idealize.ShloMosaic.Pipeline (Dat)
open Cert.KernelIdeal Cert.KernelIdeal.Gen Cert.Means

variable (m : (ℓ : Loc nD τ sig) → Buf (Elt Ideal) ℓ) (ρ : Dev nD → PrngReg)

/-- The input array and the target array as the region finds them. -/
abbrev xarr (c : Dev nD) : Arr := V m c main_arg0
abbrev tarr (c : Dev nD) : Arr := V m c main_arg1

/-- The input's and the target's block at grid point `t`. -/
abbrev xblk (c : Dev nD) (t : Fin cfg0.N) : Vec Ideal S1x17x256x256 .f32 := iblk m c 0 t
abbrev tblk (c : Dev nD) (t : Fin cfg0.N) : Vec Ideal S1x17x256x256 .f32 := iblk m c 1 t

/-- Grid point `t` as a batch element. -/
abbrev batchOf (t : Fin cfg0.N) : Fin 32 := ⟨t.val, lt_of_lt_of_eq t.isLt N_0⟩

/-- Both input windows' block index at point `t` is (t, 0, 0, 0). -/
theorem index_facts : ∀ t : Fin cfg0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0 ∧ win0_1.index t 3 = 0))

/-- The input's block at point `t` is batch element `t` of the input array. -/
theorem xblk_apply (c : Dev nD) (t : Fin cfg0.N) (ch : Fin 17) (p q : Fin 256) :
    xblk m c t (ix4 (0 : Fin 1) ch p q) = xarr m c (ix4 (batchOf t) ch p q) := by
  obtain ⟨⟨h0, h1, h2, h3⟩, _⟩ := index_facts t
  unfold xblk iblk
  rw [View.read_apply]
  show V m c main_arg0 (((cfg0.win 0).blk t).view.emb (ix4 (0 : Fin 1) ch p q)) = V m c main_arg0 (ix4 (batchOf t) ch p q)
  refine congrArg (V m c main_arg0) (funext fun a => Fin.ext ?_)
  match a with
  | ⟨0, _⟩ => show win0_0.index t 0 * 1 + 1 * 0 = t.val; rw [h0]; omega
  | ⟨1, _⟩ => show win0_0.index t 1 * 17 + 1 * ch.val = ch.val; rw [h1]; omega
  | ⟨2, _⟩ => show win0_0.index t 2 * 256 + 1 * p.val = p.val; rw [h2]; omega
  | ⟨3, _⟩ => show win0_0.index t 3 * 256 + 1 * q.val = q.val; rw [h3]; omega

/-- The target's block at point `t` is batch element `t` of the target array. -/
theorem tblk_apply (c : Dev nD) (t : Fin cfg0.N) (ch : Fin 17) (p q : Fin 256) :
    tblk m c t (ix4 (0 : Fin 1) ch p q) = tarr m c (ix4 (batchOf t) ch p q) := by
  obtain ⟨_, ⟨h0, h1, h2, h3⟩⟩ := index_facts t
  unfold tblk iblk
  rw [View.read_apply]
  show V m c main_arg1 (((cfg0.win 1).blk t).view.emb (ix4 (0 : Fin 1) ch p q)) = V m c main_arg1 (ix4 (batchOf t) ch p q)
  refine congrArg (V m c main_arg1) (funext fun a => Fin.ext ?_)
  match a with
  | ⟨0, _⟩ => show win0_1.index t 0 * 1 + 1 * 0 = t.val; rw [h0]; omega
  | ⟨1, _⟩ => show win0_1.index t 1 * 17 + 1 * ch.val = ch.val; rw [h1]; omega
  | ⟨2, _⟩ => show win0_1.index t 2 * 256 + 1 * p.val = p.val; rw [h2]; omega
  | ⟨3, _⟩ => show win0_1.index t 3 * 256 + 1 * q.val = q.val; rw [h3]; omega

/-! ## The running totals, by induction on the grid point -/

/-- After point `n`, running total 0 holds the masked sum of distances over the batch elements `0 … n`. -/
theorem total0_eq (c : Dev nD) : ∀ (n : ℕ) (h : n < cfg0.N),
    (outsAt0 m c n h).2.1 o = upTo (part1 (xarr m c) (tarr m c)) n
  | 0, h => by
    have h0 : (⟨0, h⟩ : Fin cfg0.N).val % 32 = 0 := rfl
    have h1 : ¬(⟨0, h⟩ : Fin cfg0.N).val % 32 = 31 := by show ¬(0 : ℕ) % 32 = 31; decide
    rw [outsAt0_A m c ⟨0, h⟩ h0 h1]
    dsimp only
    refine (congrFun (first_0 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _)
      ((hcond0_0 ⟨0, h⟩).mpr h0) (fun hh => h1 ((hcond0_1 ⟨0, h⟩).mp hh)) (xblk m c ⟨0, h⟩) (tblk m c ⟨0, h⟩)) o).trans ?_
    rw [upd1 (xblk m c ⟨0, h⟩) (tblk m c ⟨0, h⟩) (xarr m c) (tarr m c) (batchOf ⟨0, h⟩)
      (xblk_apply m c ⟨0, h⟩) (tblk_apply m c ⟨0, h⟩), pay2_apply, zero_add, upTo_zero]
    rfl
  | n + 1, h => by
    have hN : n + 1 < 32 := lt_of_lt_of_eq h N_0
    have h0 : ¬(⟨n + 1, h⟩ : Fin cfg0.N).val % 32 = 0 := by dsimp only; omega
    rw [upTo_succ _ n hN, ← total0_eq c n (Nat.lt_of_succ_lt h)]
    by_cases h1 : (⟨n + 1, h⟩ : Fin cfg0.N).val % 32 = 31
    · rw [outsAt0_C m c ⟨n + 1, h⟩ h0 h1]
      dsimp only
      refine (congrFun (last_0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _)
        (fun hh => h0 ((hcond0_0 ⟨n + 1, h⟩).mp hh)) ((hcond0_1 ⟨n + 1, h⟩).mpr h1) (xblk m c ⟨n + 1, h⟩) (tblk m c ⟨n + 1, h⟩)
        (outsAt0 m c n (Nat.lt_of_succ_lt h)).2.1 (outsAt0 m c n (Nat.lt_of_succ_lt h)).2.2.1
        (outsAt0 m c n (Nat.lt_of_succ_lt h)).2.2.2.1 (outsAt0 m c n (Nat.lt_of_succ_lt h)).2.2.2.2) o).trans ?_
      exact upd1 (xblk m c ⟨n + 1, h⟩) (tblk m c ⟨n + 1, h⟩) (xarr m c) (tarr m c) (batchOf ⟨n + 1, h⟩)
        (xblk_apply m c ⟨n + 1, h⟩) (tblk_apply m c ⟨n + 1, h⟩) _
    · rw [outsAt0_B m c ⟨n + 1, h⟩ h0 h1]
      dsimp only
      refine (congrFun (middle_0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _)
        (fun hh => h0 ((hcond0_0 ⟨n + 1, h⟩).mp hh)) (fun hh => h1 ((hcond0_1 ⟨n + 1, h⟩).mp hh)) (xblk m c ⟨n + 1, h⟩) (tblk m c ⟨n + 1, h⟩)
        (outsAt0 m c n (Nat.lt_of_succ_lt h)).2.1 (outsAt0 m c n (Nat.lt_of_succ_lt h)).2.2.1
        (outsAt0 m c n (Nat.lt_of_succ_lt h)).2.2.2.1 (outsAt0 m c n (Nat.lt_of_succ_lt h)).2.2.2.2) o).trans ?_
      exact upd1 (xblk m c ⟨n + 1, h⟩) (tblk m c ⟨n + 1, h⟩) (xarr m c) (tarr m c) (batchOf ⟨n + 1, h⟩)
        (xblk_apply m c ⟨n + 1, h⟩) (tblk_apply m c ⟨n + 1, h⟩) _

/-- After point `n`, running total 1 holds the count of positive targets over the batch elements `0 … n`. -/
theorem total1_eq (c : Dev nD) : ∀ (n : ℕ) (h : n < cfg0.N),
    (outsAt0 m c n h).2.2.1 o = upTo (part2 (tarr m c)) n
  | 0, h => by
    have h0 : (⟨0, h⟩ : Fin cfg0.N).val % 32 = 0 := rfl
    have h1 : ¬(⟨0, h⟩ : Fin cfg0.N).val % 32 = 31 := by show ¬(0 : ℕ) % 32 = 31; decide
    rw [outsAt0_A m c ⟨0, h⟩ h0 h1]
    dsimp only
    refine (congrFun (first_1 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _)
      ((hcond0_0 ⟨0, h⟩).mpr h0) (fun hh => h1 ((hcond0_1 ⟨0, h⟩).mp hh)) (xblk m c ⟨0, h⟩) (tblk m c ⟨0, h⟩)) o).trans ?_
    rw [upd2 (xblk m c ⟨0, h⟩) (tblk m c ⟨0, h⟩) (xarr m c) (tarr m c) (batchOf ⟨0, h⟩)
      (xblk_apply m c ⟨0, h⟩) (tblk_apply m c ⟨0, h⟩), pay3_apply, zero_add, upTo_zero]
    rfl
  | n + 1, h => by
    have hN : n + 1 < 32 := lt_of_lt_of_eq h N_0
    have h0 : ¬(⟨n + 1, h⟩ : Fin cfg0.N).val % 32 = 0 := by dsimp only; omega
    rw [upTo_succ _ n hN, ← total1_eq c n (Nat.lt_of_succ_lt h)]
    by_cases h1 : (⟨n + 1, h⟩ : Fin cfg0.N).val % 32 = 31
    · rw [outsAt0_C m c ⟨n + 1, h⟩ h0 h1]
      dsimp only
      refine (congrFun (last_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _)
        (fun hh => h0 ((hcond0_0 ⟨n + 1, h⟩).mp hh)) ((hcond0_1 ⟨n + 1, h⟩).mpr h1) (xblk m c ⟨n + 1, h⟩) (tblk m c ⟨n + 1, h⟩)
        (outsAt0 m c n (Nat.lt_of_succ_lt h)).2.1 (outsAt0 m c n (Nat.lt_of_succ_lt h)).2.2.1
        (outsAt0 m c n (Nat.lt_of_succ_lt h)).2.2.2.1 (outsAt0 m c n (Nat.lt_of_succ_lt h)).2.2.2.2) o).trans ?_
      exact upd2 (xblk m c ⟨n + 1, h⟩) (tblk m c ⟨n + 1, h⟩) (xarr m c) (tarr m c) (batchOf ⟨n + 1, h⟩)
        (xblk_apply m c ⟨n + 1, h⟩) (tblk_apply m c ⟨n + 1, h⟩) _
    · rw [outsAt0_B m c ⟨n + 1, h⟩ h0 h1]
      dsimp only
      refine (congrFun (middle_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _)
        (fun hh => h0 ((hcond0_0 ⟨n + 1, h⟩).mp hh)) (fun hh => h1 ((hcond0_1 ⟨n + 1, h⟩).mp hh)) (xblk m c ⟨n + 1, h⟩) (tblk m c ⟨n + 1, h⟩)
        (outsAt0 m c n (Nat.lt_of_succ_lt h)).2.1 (outsAt0 m c n (Nat.lt_of_succ_lt h)).2.2.1
        (outsAt0 m c n (Nat.lt_of_succ_lt h)).2.2.2.1 (outsAt0 m c n (Nat.lt_of_succ_lt h)).2.2.2.2) o).trans ?_
      exact upd2 (xblk m c ⟨n + 1, h⟩) (tblk m c ⟨n + 1, h⟩) (xarr m c) (tarr m c) (batchOf ⟨n + 1, h⟩)
        (xblk_apply m c ⟨n + 1, h⟩) (tblk_apply m c ⟨n + 1, h⟩) _

/-- After point `n`, running total 2 holds the sum of distances at pixels where some channel's target is positive over the batch elements `0 … n`. -/
theorem total2_eq (c : Dev nD) : ∀ (n : ℕ) (h : n < cfg0.N),
    (outsAt0 m c n h).2.2.2.1 o = upTo (part3 (xarr m c) (tarr m c)) n
  | 0, h => by
    have h0 : (⟨0, h⟩ : Fin cfg0.N).val % 32 = 0 := rfl
    have h1 : ¬(⟨0, h⟩ : Fin cfg0.N).val % 32 = 31 := by show ¬(0 : ℕ) % 32 = 31; decide
    rw [outsAt0_A m c ⟨0, h⟩ h0 h1]
    dsimp only
    refine (congrFun (first_2 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _)
      ((hcond0_0 ⟨0, h⟩).mpr h0) (fun hh => h1 ((hcond0_1 ⟨0, h⟩).mp hh)) (xblk m c ⟨0, h⟩) (tblk m c ⟨0, h⟩)) o).trans ?_
    rw [upd3 (xblk m c ⟨0, h⟩) (tblk m c ⟨0, h⟩) (xarr m c) (tarr m c) (batchOf ⟨0, h⟩)
      (xblk_apply m c ⟨0, h⟩) (tblk_apply m c ⟨0, h⟩), pay4_apply, zero_add, upTo_zero]
    rfl
  | n + 1, h => by
    have hN : n + 1 < 32 := lt_of_lt_of_eq h N_0
    have h0 : ¬(⟨n + 1, h⟩ : Fin cfg0.N).val % 32 = 0 := by dsimp only; omega
    rw [upTo_succ _ n hN, ← total2_eq c n (Nat.lt_of_succ_lt h)]
    by_cases h1 : (⟨n + 1, h⟩ : Fin cfg0.N).val % 32 = 31
    · rw [outsAt0_C m c ⟨n + 1, h⟩ h0 h1]
      dsimp only
      refine (congrFun (last_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _)
        (fun hh => h0 ((hcond0_0 ⟨n + 1, h⟩).mp hh)) ((hcond0_1 ⟨n + 1, h⟩).mpr h1) (xblk m c ⟨n + 1, h⟩) (tblk m c ⟨n + 1, h⟩)
        (outsAt0 m c n (Nat.lt_of_succ_lt h)).2.1 (outsAt0 m c n (Nat.lt_of_succ_lt h)).2.2.1
        (outsAt0 m c n (Nat.lt_of_succ_lt h)).2.2.2.1 (outsAt0 m c n (Nat.lt_of_succ_lt h)).2.2.2.2) o).trans ?_
      exact upd3 (xblk m c ⟨n + 1, h⟩) (tblk m c ⟨n + 1, h⟩) (xarr m c) (tarr m c) (batchOf ⟨n + 1, h⟩)
        (xblk_apply m c ⟨n + 1, h⟩) (tblk_apply m c ⟨n + 1, h⟩) _
    · rw [outsAt0_B m c ⟨n + 1, h⟩ h0 h1]
      dsimp only
      refine (congrFun (middle_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _)
        (fun hh => h0 ((hcond0_0 ⟨n + 1, h⟩).mp hh)) (fun hh => h1 ((hcond0_1 ⟨n + 1, h⟩).mp hh)) (xblk m c ⟨n + 1, h⟩) (tblk m c ⟨n + 1, h⟩)
        (outsAt0 m c n (Nat.lt_of_succ_lt h)).2.1 (outsAt0 m c n (Nat.lt_of_succ_lt h)).2.2.1
        (outsAt0 m c n (Nat.lt_of_succ_lt h)).2.2.2.1 (outsAt0 m c n (Nat.lt_of_succ_lt h)).2.2.2.2) o).trans ?_
      exact upd3 (xblk m c ⟨n + 1, h⟩) (tblk m c ⟨n + 1, h⟩) (xarr m c) (tarr m c) (batchOf ⟨n + 1, h⟩)
        (xblk_apply m c ⟨n + 1, h⟩) (tblk_apply m c ⟨n + 1, h⟩) _

/-- After point `n`, running total 3 holds seventeen times the count of such pixels over the batch elements `0 … n`. -/
theorem total3_eq (c : Dev nD) : ∀ (n : ℕ) (h : n < cfg0.N),
    (outsAt0 m c n h).2.2.2.2 o = upTo (part4 (tarr m c)) n
  | 0, h => by
    have h0 : (⟨0, h⟩ : Fin cfg0.N).val % 32 = 0 := rfl
    have h1 : ¬(⟨0, h⟩ : Fin cfg0.N).val % 32 = 31 := by show ¬(0 : ℕ) % 32 = 31; decide
    rw [outsAt0_A m c ⟨0, h⟩ h0 h1]
    dsimp only
    refine (congrFun (first_3 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) scM0_2 (Memref.isWhole_whole _) scM0_3 (Memref.isWhole_whole _)
      ((hcond0_0 ⟨0, h⟩).mpr h0) (fun hh => h1 ((hcond0_1 ⟨0, h⟩).mp hh)) (xblk m c ⟨0, h⟩) (tblk m c ⟨0, h⟩)) o).trans ?_
    rw [upd4 (xblk m c ⟨0, h⟩) (tblk m c ⟨0, h⟩) (xarr m c) (tarr m c) (batchOf ⟨0, h⟩)
      (xblk_apply m c ⟨0, h⟩) (tblk_apply m c ⟨0, h⟩), pay5_apply, zero_add, upTo_zero]
    rfl
  | n + 1, h => by
    have hN : n + 1 < 32 := lt_of_lt_of_eq h N_0
    have h0 : ¬(⟨n + 1, h⟩ : Fin cfg0.N).val % 32 = 0 := by dsimp only; omega
    rw [upTo_succ _ n hN, ← total3_eq c n (Nat.lt_of_succ_lt h)]
    by_cases h1 : (⟨n + 1, h⟩ : Fin cfg0.N).val % 32 = 31
    · rw [outsAt0_C m c ⟨n + 1, h⟩ h0 h1]
      dsimp only
      refine (congrFun (last_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _)
        (fun hh => h0 ((hcond0_0 ⟨n + 1, h⟩).mp hh)) ((hcond0_1 ⟨n + 1, h⟩).mpr h1) (xblk m c ⟨n + 1, h⟩) (tblk m c ⟨n + 1, h⟩)
        (outsAt0 m c n (Nat.lt_of_succ_lt h)).2.1 (outsAt0 m c n (Nat.lt_of_succ_lt h)).2.2.1
        (outsAt0 m c n (Nat.lt_of_succ_lt h)).2.2.2.1 (outsAt0 m c n (Nat.lt_of_succ_lt h)).2.2.2.2) o).trans ?_
      exact upd4 (xblk m c ⟨n + 1, h⟩) (tblk m c ⟨n + 1, h⟩) (xarr m c) (tarr m c) (batchOf ⟨n + 1, h⟩)
        (xblk_apply m c ⟨n + 1, h⟩) (tblk_apply m c ⟨n + 1, h⟩) _
    · rw [outsAt0_B m c ⟨n + 1, h⟩ h0 h1]
      dsimp only
      refine (congrFun (middle_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) scM0_2 (Memref.isWhole_whole _) scM0_3 (Memref.isWhole_whole _)
        (fun hh => h0 ((hcond0_0 ⟨n + 1, h⟩).mp hh)) (fun hh => h1 ((hcond0_1 ⟨n + 1, h⟩).mp hh)) (xblk m c ⟨n + 1, h⟩) (tblk m c ⟨n + 1, h⟩)
        (outsAt0 m c n (Nat.lt_of_succ_lt h)).2.1 (outsAt0 m c n (Nat.lt_of_succ_lt h)).2.2.1
        (outsAt0 m c n (Nat.lt_of_succ_lt h)).2.2.2.1 (outsAt0 m c n (Nat.lt_of_succ_lt h)).2.2.2.2) o).trans ?_
      exact upd4 (xblk m c ⟨n + 1, h⟩) (tblk m c ⟨n + 1, h⟩) (xarr m c) (tarr m c) (batchOf ⟨n + 1, h⟩)
        (xblk_apply m c ⟨n + 1, h⟩) (tblk_apply m c ⟨n + 1, h⟩) _

/-! ## The output block -/

/-- The output block the last point writes holds the specification's value. -/
theorem out_eq (c : Dev nD) (t : Fin cfg0.N) (h1 : t.val % 32 = 31) :
    (outsAt0 m c t.val t.isLt).1 o = value (xarr m c) (tarr m c) := by
  have hN : t.val < 32 := lt_of_lt_of_eq t.isLt N_0
  have h0 : ¬t.val % 32 = 0 := by omega
  have hp : t.val - 1 < cfg0.N := Nat.lt_of_le_of_lt (Nat.sub_le _ _) t.isLt
  have e30 : t.val - 1 = 30 := by omega
  have h31 : (30 : ℕ) + 1 < 32 := by decide
  have eb : batchOf t = ⟨30 + 1, h31⟩ := Fin.ext (by show t.val = 30 + 1; omega)
  rw [outsAt0_C m c t h0 h1]
  dsimp only
  refine (congrFun (last_out (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _)
    (fun hh => h0 ((hcond0_0 t).mp hh)) ((hcond0_1 t).mpr h1) (xblk m c t) (tblk m c t)
    (outsAt0 m c (t.val - 1) hp).2.1 (outsAt0 m c (t.val - 1) hp).2.2.1 (outsAt0 m c (t.val - 1) hp).2.2.2.1
    (outsAt0 m c (t.val - 1) hp).2.2.2.2) o).trans ?_
  refine (pay1_apply _ _ _ _).trans ?_
  unfold value
  refine congrArg (fun s : EReal => s * ((1 / 2 : ℝ) : EReal)) ?_
  refine congrArg₂ (fun a b : EReal => a + b) (congrArg₂ Ideal.div ?_ ?_) (congrArg₂ Ideal.div ?_ ?_)
  · refine (upd1 (xblk m c t) (tblk m c t) (xarr m c) (tarr m c) (batchOf t) (xblk_apply m c t) (tblk_apply m c t) _).trans ?_
    rw [total0_eq m c (t.val - 1) hp, e30, eb]
    exact (upTo_succ _ 30 h31).symm.trans (upTo_last _)
  · refine (upd2 (xblk m c t) (tblk m c t) (xarr m c) (tarr m c) (batchOf t) (xblk_apply m c t) (tblk_apply m c t) _).trans ?_
    rw [total1_eq m c (t.val - 1) hp, e30, eb]
    exact (upTo_succ _ 30 h31).symm.trans (upTo_last _)
  · refine (upd3 (xblk m c t) (tblk m c t) (xarr m c) (tarr m c) (batchOf t) (xblk_apply m c t) (tblk_apply m c t) _).trans ?_
    rw [total2_eq m c (t.val - 1) hp, e30, eb]
    exact (upTo_succ _ 30 h31).symm.trans (upTo_last _)
  · refine (upd4 (xblk m c t) (tblk m c t) (xarr m c) (tarr m c) (batchOf t) (xblk_apply m c t) (tblk_apply m c t) _).trans ?_
    rw [total3_eq m c (t.val - 1) hp, e30, eb]
    exact (upTo_succ _ 30 h31).symm.trans (upTo_last _)

end Cert.KernelIdeal.Means

end
-- ==== Proof.Final.lean ====
/-
  The kernel's result.

  The output window is one [1, 1] block, the whole of its [1, 1] array, written back once, after the last grid point.
  So the array ends holding the block the last point wrote, the specification's value; the one host operation after the
  region reshapes it to a scalar, which is what @main returns; the four argument arrays end as they were.
-/
import proofs.«400264_j44032004718828_4_alg».proof.Proof.Chain

noncomputable section

open scoped BigOperators

namespace Cert.KernelIdeal.Means

open Idealize.ShloMosaic Idealize.ShloMosaic.TcCoe Idealize.SL.Sem Idealize.ShloMosaic.ValueIdx
open Idealize.ShloMosaic.Pipeline (Dat)
open Cert.KernelIdeal Cert.KernelIdeal.Gen Cert.Means

variable (m : (ℓ : Loc nD τ sig) → Buf (Elt Ideal) ℓ) (ρ : Dev nD → PrngReg)

/-- The [1, 1] result array: the specification's value at its one index. -/
abbrev result (c : Dev nD) : Buf (Elt Ideal) ((c : Thread nD τ).loc main_v0) := fun _ => value (xarr m c) (tarr m c)

/-- A [1, 1] block has one index. -/
theorem idx_one (y : S1x1.Idx) : y = o := funext fun a => Fin.ext (by
  match a with
  | ⟨0, _⟩ => have h : (y 0).val < 1 := (y 0).isLt; show (y 0).val = 0; omega
  | ⟨1, _⟩ => have h : (y 1).val < 1 := (y 1).isLt; show (y 1).val = 0; omega)

/-- The last grid point. -/
abbrev tLast : Fin cfg0.N := ⟨31, by rw [show cfg0.N = 32 from N_0]; decide⟩

/-- The block the last point leaves in the output's staging buffer. -/
theorem out_vec_eq (c : Dev nD) (t : Fin cfg0.N) (h1 : t.val % 32 = 31) : (outsAt0 m c t.val t.isLt).1 = result m c :=
  funext fun y => by rw [idx_one y]; exact out_eq m c t h1

/-- The one write-back, after the last point, writes the value: block (0, 0) of the [1, 1] array is the array. -/
theorem flushed_eq (c : Dev nD) (t : Fin cfg0.N) (hf : (cfg0.win 2).flush t = true) :
    (dats m 0 c).flushed 2 t = ((cfg0.win 2).blk t).view.read (Elt Ideal) (result m c) := by
  have h1 : t.val % 32 = 31 := (flush0_2 t).mp hf
  show (cfg0.win 2).cut (grid0.coords t) ((dats m 0 c).after 2 t) = _
  rw [after0_2, out_vec_eq m c t h1]
  have hidx : ∀ t : Fin cfg0.N, win0_2.index t 0 = 0 ∧ win0_2.index t 1 = 0 :=
    (by decide +kernel : ∀ t : Fin grid0.N, win0_2.index t 0 = 0 ∧ win0_2.index t 1 = 0)
  have hz' : (fun a => win0_2.index t a * main_v0.ty.shape.size a) = fun _ => 0 := funext fun a => by
    match a with
    | ⟨0, _⟩ => show win0_2.index t 0 * 1 = 0; rw [(hidx t).1]
    | ⟨1, _⟩ => show win0_2.index t 1 * 1 = 0; rw [(hidx t).2]
  exact (Memref.read_access_unit_zero (Elt Ideal) main_v0 hz' (fun a => by rw [congrFun hz' a]; simp) (result m c)).symm

/-- So the result array ends holding the value (the last point's block covers it). -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- What @main returns: the host reshape of the result array to a scalar. -/
theorem tail_eq (c : Dev nD) :
    Pipeline.afterTail₀ cfgs (dats m) 0 (V0 m) [hostOps1] c main_v1 = fun _ => value (xarr m c) (tarr m c) := by
  unfold Pipeline.afterTail₀
  show StableHlo.after hostOps1 _ (Proc.devRef .tc main_v1) = _
  after_results
  funext i
  show shapeCast S_ (Pipeline.withArrays spec0 c (V0 m c) (fun w => (dats m 0 c).arrAt w cfg0.N) (Proc.devRef .tc main_v0))
    shapeCasts_S1x1_S_ i = _
  rw [show Pipeline.withArrays spec0 c (V0 m c) (fun w => (dats m 0 c).arrAt w cfg0.N) (Proc.devRef .tc main_v0) = result m c from
    (Pipeline.withArrays_arr spec0 launch0.win.arr_inj c _ _ 2).trans (final m c)]
  rfl

/-- The kernel's run, read: @main's result at the value, the four argument arrays unchanged. -/
theorem run : θ_run defs (onTc (τ := τ) (main (F := Ideal))) ⟨m, fun _ => 0, ρ⟩ fun r => ∀ c : Dev nD,
      r.2.mem ((c.tc : Thread nD τ).loc main_v1)
        = (fun _ => value (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Means

end
-- ==== Proof.Bridge.lean ====
/-
  Regrouping facts between sums over the whole index set of a [32, 17, 256, 256] array (as a program that reduces over
  every axis at once sees them) and the specification's per-batch parts (sums over rows and columns with the channel
  sum innermost).

  * A masked sum over all indices, the mask being the target's positive bit, is the sum of the first parts.
  * The number of set bits of that mask, as an extended real, is the sum of the second parts.
  * A masked sum over all indices, the mask at (b, c, p, q) being "some channel's target is positive at (b, p, q)",
    is the sum of the third parts: a mask that does not depend on the channel leaves the channel sum.
  * Seventeen times the number of (b, p, q) at which that mask is set is the sum of the fourth parts; the product is
    distributed over the sum on the reals, under the coercion.
  * An or-fold of the positive bits over the channels is the bit "the maximum of the bits, as extended reals, is above
    zero".
-/
import proofs.«400264_j44032004718828_4_alg».proof.Proof.Spec
import proofs.«400264_j44032004718828_4_alg».proof.Proof.LibSums
import Idealize.ShloMosaic.Lib.ValueIdx
import Idealize.ShloMosaic.PureOps.Ideal.Laws
import Idealize.ShloMosaic.PureOps.Reduce
import Idealize.ShloMosaic.Lib.StableHlo.Predicate

noncomputable section

open scoped BigOperators

namespace Cert.Bridge

open Idealize.ShloMosaic Idealize.ShloMosaic.ValueIdx Cert.Means Cert.LibSums

/-! ## Bits as reals -/

/-- A bit as a real: 1 when set, 0 when clear. -/
def indR (b : BitVec 1) : ℝ := if b = 1#1 then 1 else 0

/-- The bit as an extended real is the coercion of the bit as a real. -/
theorem ind_eq_coe (b : BitVec 1) : ind b = ((indR b : ℝ) : EReal) := by
  rcases BitVec.eq_zero_or_eq_one b with rfl | rfl
  · simp [ind, indR, Scalar.select]
  · simp [ind, indR, Scalar.select]

/-- The bit as an extended real, as an if on "the bit is 1". -/
theorem ind_eq_ite (b : BitVec 1) : ind b = if b = 1#1 then (1 : EReal) else 0 := rfl

/-- The number of set bits of a mask over any finite index set, as an extended real, is the sum of the bits. -/
theorem count_eq_sum_ind {ι : Type*} [Fintype ι] (m : ι → BitVec 1) :
    ((((Finset.univ.filter fun j : ι => m j = 1#1).card : ℕ) : ℝ) : EReal) = ∑ j, ind (m j) := by
  rw [← Finset.sum_boole, coe_sum]
  exact Finset.sum_congr rfl fun j _ => (ind_eq_coe (m j)).symm

/-- Two one-bit words are equal when each is 1 exactly when the other is. -/
theorem bit_ext {x y : BitVec 1} (h : x = 1#1 ↔ y = 1#1) : x = y := by
  rcases BitVec.eq_zero_or_eq_one x with rfl | rfl <;> rcases BitVec.eq_zero_or_eq_one y with rfl | rfl
  · rfl
  · exact absurd (h.2 rfl) (by decide)
  · exact absurd (h.1 rfl) (by decide)
  · rfl

/-! ## A select against zero and a sum -/

/-- A mask bit that does not depend on the summation index leaves the sum. -/
theorem sum_select {ι : Type*} (s : Finset ι) (a : BitVec 1) (f : ι → EReal) :
    ∑ c ∈ s, Scalar.select a (f c) 0 = Scalar.select a (∑ c ∈ s, f c) 0 := by
  rcases BitVec.eq_zero_or_eq_one a with rfl | rfl
  · simp only [select_zero]; exact Finset.sum_const_zero
  · simp only [select_one]

/-! ## Moving the channel sum innermost -/

/-- A fourfold sum over (batch, channel, row, column) with the channel sum moved innermost. -/
theorem sum_channel_inner {M : Type*} [AddCommMonoid M] (f : Fin 32 → Fin 17 → Fin 256 → Fin 256 → M) :
    ∑ b, ∑ c, ∑ p, ∑ q, f b c p q = ∑ b, ∑ p, ∑ q, ∑ c, f b c p q := by
  refine Finset.sum_congr rfl fun b _ => ?_
  rw [Finset.sum_comm]
  refine Finset.sum_congr rfl fun p _ => ?_
  rw [Finset.sum_comm]

/-! ## The four regroupings -/

/-- The masked sum of distances over all indices, the mask reading the target's positive bit, is the sum of the first
    parts. -/
theorem sum_part1 (X T : Arr) (m : (⟨4, ![32, 17, 256, 256]⟩ : Shape).Idx → BitVec 1) (d : Arr)
    (hm : ∀ j, m j = pos (T j)) (hd : ∀ j, d j = dist (X j) (T j)) :
    ∑ j, Scalar.select (m j) (d j) 0 = ∑ b, part1 X T b := by
  rw [sum_idx4, sum_channel_inner]
  refine Finset.sum_congr rfl fun b _ => ?_
  unfold part1
  refine Finset.sum_congr rfl fun p _ => Finset.sum_congr rfl fun q _ => Finset.sum_congr rfl fun c _ => ?_
  rw [hm, hd]

/-- The number of indices at which the mask is set, the mask reading the target's positive bit, is the sum of the
    second parts. -/
theorem count_part2 (T : Arr) (m : (⟨4, ![32, 17, 256, 256]⟩ : Shape).Idx → BitVec 1) (hm : ∀ j, m j = pos (T j)) :
    ((((Finset.univ.filter fun j => m j = 1#1).card : ℕ) : ℝ) : EReal) = ∑ b, part2 T b := by
  rw [count_eq_sum_ind, sum_idx4, sum_channel_inner]
  refine Finset.sum_congr rfl fun b _ => ?_
  unfold part2
  refine Finset.sum_congr rfl fun p _ => Finset.sum_congr rfl fun q _ => Finset.sum_congr rfl fun c _ => ?_
  rw [hm]

/-- The masked sum of distances over all indices, the mask at (b, c, p, q) reading "some channel's target is positive
    at (b, p, q)", is the sum of the third parts. -/
theorem sum_part3 (X T : Arr) (m : (⟨4, ![32, 17, 256, 256]⟩ : Shape).Idx → BitVec 1) (d : Arr)
    (hm : ∀ b c p q, m (ix4 b c p q) = anyPos fun c' => T (ix4 b c' p q)) (hd : ∀ j, d j = dist (X j) (T j)) :
    ∑ j, Scalar.select (m j) (d j) 0 = ∑ b, part3 X T b := by
  rw [sum_idx4, sum_channel_inner]
  refine Finset.sum_congr rfl fun b _ => ?_
  unfold part3
  refine Finset.sum_congr rfl fun p _ => Finset.sum_congr rfl fun q _ => ?_
  rw [← sum_select]
  refine Finset.sum_congr rfl fun c _ => ?_
  rw [hm, hd]

/-- Seventeen times the number of (b, p, q) at which "some channel's target is positive" holds — counted over the
    indices of a [32, 1, 256, 256] mask — is the sum of the fourth parts. -/
theorem count_part4 (T : Arr) (m : (⟨4, ![32, 1, 256, 256]⟩ : Shape).Idx → BitVec 1)
    (hm : ∀ b c p q, m (ix4 b c p q) = anyPos fun c' => T (ix4 b c' p q)) :
    ((((Finset.univ.filter fun j => m j = 1#1).card : ℕ) : ℝ) : EReal) * ((17 : ℝ) : EReal) = ∑ b, part4 T b := by
  -- each batch element's count, as a real
  let r : Fin 32 → ℝ := fun b => ∑ p : Fin 256, ∑ q : Fin 256, indR (anyPos fun c' => T (ix4 b c' p q))
  have hr : ∀ b : Fin 32,
      (∑ p : Fin 256, ∑ q : Fin 256, ind (anyPos fun c' => T (ix4 b c' p q))) = ((r b : ℝ) : EReal) := by
    intro b
    show _ = (((∑ p : Fin 256, ∑ q : Fin 256, indR (anyPos fun c' => T (ix4 b c' p q)) : ℝ)) : EReal)
    rw [coe_sum]
    refine Finset.sum_congr rfl fun p _ => ?_
    rw [coe_sum]
    exact Finset.sum_congr rfl fun q _ => ind_eq_coe _
  have hcount : ((((Finset.univ.filter fun j => m j = 1#1).card : ℕ) : ℝ) : EReal) = (((∑ b, r b : ℝ)) : EReal) := by
    rw [count_eq_sum_ind, sum_idx4, coe_sum]
    refine Finset.sum_congr rfl fun b _ => ?_
    rw [← hr b, Fin.sum_univ_one]
    refine Finset.sum_congr rfl fun p _ => Finset.sum_congr rfl fun q _ => ?_
    rw [hm]
  rw [hcount, ← EReal.coe_mul, Finset.sum_mul, coe_sum]
  refine Finset.sum_congr rfl fun b _ => ?_
  unfold part4
  rw [hr b, EReal.coe_mul]

/-! ## The or of the positive bits is the maximum's bit -/

/-- The or-fold over the channels of the positive bits is the bit "the maximum over the channels of the bits, as
    extended reals from the bottom element, is above zero". -/
theorem fold_ori_eq_anyPos (t : Fin 17 → EReal) :
    (Finset.univ : Finset (Fin 17)).fold IntOp.ori 0#1 (fun c => pos (t c)) = anyPos t := by
  apply bit_ext
  rw [fold_ori_eq_one]
  unfold anyPos Ideal.cmp
  rw [StableHlo.Predicate.ofBool_eq_one_iff, decide_eq_true_eq]
  exact (zero_lt_fold_max Finset.univ fun c => pos (t c)).symm

end Cert.Bridge

end
-- ==== Proof.RefValue.lean ====
/-
  The reference's result, read as the specification's value.

  The reference computes, over the whole [32, 17, 256, 256] arrays at once: the sum of the distances where the target
  is positive, divided by the number of such elements; the sum of the distances at the pixels where SOME channel's
  target is positive (the or of the positive bits over the channels, laid back over the channels), divided by
  seventeen times the number of such pixels; and half the sum of the two quotients. Each total sum is read as the sum
  over every index, each integer count as the number of set bits (the counts are far below 2^31, so the 32-bit sums do
  not wrap), each broadcast at an index by its coordinates, and the regrouping facts give the specification's parts.
-/
import proofs.«400264_j44032004718828_4_alg».proof.Proof.RefRun
import proofs.«400264_j44032004718828_4_alg».proof.Proof.Bridge
import proofs.«400264_j44032004718828_4_alg».proof.Proof.Consts

noncomputable section

open scoped BigOperators

namespace Cert.ReferenceIdeal.Means

open Cert.ReferenceIdeal Cert.ReferenceIdeal.Gen Idealize.ShloMosaic Idealize.ShloMosaic.ValueIdx Cert.LibSums Cert.Bridge
  Cert.Consts

/-! ## The pieces of the reference's term -/

/-- The array of zeros the reference compares against and selects. -/
def zeros : FVec Ideal S32x17x256x256 .f32 :=
  broadcastInDim S32x17x256x256 ![] bcast_S_S32x17x256x256 (constant S_ .f32 0x00000000#32)

/-- The mask "the target is positive". -/
def posMask (T : FVec Ideal S32x17x256x256 .f32) : IVec S32x17x256x256 1 := cmpf .ogt T zeros

/-- The distances. -/
def dists (X T : FVec Ideal S32x17x256x256 .f32) : FVec Ideal S32x17x256x256 .f32 := Host.absf (subf X T)

/-- The or of the positive bits over the channels, a [32, 256, 256] mask. -/
def orMask (T : FVec Ideal S32x17x256x256 .f32) : IVec S32x256x256 1 :=
  Host.reduce IntOp.ori (posMask T) (constantI S_ 1 0#1) reducesTo_S32x17x256x256_S32x256x256_d1 h_S_

/-- The same with a unit channel axis. -/
def orMask1 (T : FVec Ideal S32x17x256x256 .f32) : IVec S32x1x256x256 1 :=
  broadcastInDim S32x1x256x256 ![0, 2, 3] bcast_S32x256x256_S32x1x256x256_0_2_3 (orMask T)

/-- The same laid over the seventeen channels. -/
def orMask17 (T : FVec Ideal S32x17x256x256 .f32) : IVec S32x17x256x256 1 :=
  broadcastInDim S32x17x256x256 ![0, 1, 2, 3] bcast_S32x1x256x256_S32x17x256x256_0_1_2_3 (orMask1 T)

/-- A masked total of the distances. -/
def total (M : IVec S32x17x256x256 1) (X T : FVec Ideal S32x17x256x256 .f32) : FVec Ideal S_ .f32 :=
  Host.reduceAdd (select M (dists X T) zeros) (constant S_ .f32 0x00000000#32) reducesTo_S32x17x256x256_S_d0_1_2_3 h_S_

/-- The number of set bits of a mask, summed as 32-bit words and converted to a float. -/
def count {s : Shape} {axes : List (Fin s.rank)} (M : IVec s 1) (h : s.ReducesTo axes S_) : FVec Ideal S_ .f32 :=
  sitofp .f32 (Host.reduce IntOp.addi (extui 32 M natLt_1_32) (constantI S_ 32 0#32) h h_S_)

/-! ## Reading the pieces at an index -/

/-- The zero array reads 0 everywhere. -/
theorem zeros_apply (j : S32x17x256x256.Idx) : zeros j = (0 : EReal) := by
  unfold zeros
  refine (StableHlo.Predicate.bcast_scalar bcast_S_S32x17x256x256 h_S_ _ j).trans ?_
  show Ideal.ofBits .f32 0x00000000#32 = 0
  exact ofBits_zero

/-- The positive mask reads the specification's positive bit of the target. -/
theorem posMask_apply (T : FVec Ideal S32x17x256x256 .f32) (j : S32x17x256x256.Idx) :
    posMask T j = Cert.Means.pos (T j) := by
  show Ideal.cmp .ogt (T j) (zeros j) = Ideal.cmp .ogt (T j) 0
  rw [zeros_apply]

/-- The distances read the specification's distance. -/
theorem dists_apply (X T : FVec Ideal S32x17x256x256 .f32) (j : S32x17x256x256.Idx) :
    dists X T j = Cert.Means.dist (X j) (T j) := rfl

/-- A masked total of the distances is the sum over every index of the selected distances. -/
theorem total_apply (M : IVec S32x17x256x256 1) (X T : FVec Ideal S32x17x256x256 .f32) (i : S_.Idx) :
    total M X T i = ∑ j, Scalar.select (M j) (dists X T j) 0 := by
  show Ideal.hostReduceAdd reducesTo_S32x17x256x256_S_d0_1_2_3 (select M (dists X T) zeros)
      (constant (F := Ideal) S_ .f32 0x00000000#32 (Shape.Idx.first h_S_)) i = _
  refine (Ideal.hostReduceAdd_total _ (fun b => b.elim0) _ _ i).trans ?_
  show Ideal.ofBits .f32 0x00000000#32 + _ = _
  rw [ofBits_zero, zero_add]
  refine Finset.sum_congr rfl fun j _ => ?_
  show Scalar.select (M j) (dists X T j) (zeros j) = _
  rw [zeros_apply]

/-- The count of a mask with fewer than 2^31 indices is the number of its set bits. -/
theorem count_apply {s : Shape} {axes : List (Fin s.rank)} (M : IVec s 1) (h : s.ReducesTo axes S_)
    (hcard : Fintype.card s.Idx < 2 ^ 31) (i : S_.Idx) :
    count M h i = ((((Finset.univ.filter fun j => M j = 1#1).card : ℕ) : ℝ) : EReal) := by
  show (((Host.reduce IntOp.addi (extui 32 M natLt_1_32) (constantI S_ 32 0#32) h h_S_ i).toInt : ℝ) : EReal) = _
  have hn := toNat_reduce_count_total M natLt_1_32 h h_S_ (lt_trans hcard (by norm_num)) i
  rw [toInt_cast_of_toNat hn (lt_of_le_of_lt (Finset.card_le_univ _) hcard)]

theorem card_17 : Fintype.card S32x17x256x256.Idx < 2 ^ 31 := by
  have h : Fintype.card (⟨4, ![32, 17, 256, 256]⟩ : Shape).Idx = 32 * 17 * 256 * 256 := card_idx4
  rw [h]; norm_num

theorem card_1 : Fintype.card S32x1x256x256.Idx < 2 ^ 31 := by
  have h : Fintype.card (⟨4, ![32, 1, 256, 256]⟩ : Shape).Idx = 32 * 1 * 256 * 256 := card_idx4
  rw [h]; norm_num

/-! ## The broadcasts at an index -/

/-- A [32, 256, 256] array given a unit channel axis reads, at (b, c, p, q), the array at (b, p, q). -/
theorem bcast_unit_apply {α : Type} (v : S32x256x256.Idx → α) (b : Fin 32) (c : Fin 1) (p q : Fin 256) :
    broadcastInDim S32x1x256x256 ![0, 2, 3] bcast_S32x256x256_S32x1x256x256_0_2_3 v (ix4 b c p q) = v (ix3 b p q) := by
  simp only [broadcastInDim]
  congr 1
  funext a
  apply Fin.ext
  match a with
  | ⟨0, _⟩ =>
    split
    · next h1 => change (32 : ℕ) = 1 at h1; omega
    · rfl
  | ⟨1, _⟩ =>
    split
    · next h1 => change (256 : ℕ) = 1 at h1; omega
    · rfl
  | ⟨2, _⟩ =>
    split
    · next h1 => change (256 : ℕ) = 1 at h1; omega
    · rfl

/-- A [32, 1, 256, 256] array laid over seventeen channels reads, at (b, c, p, q), the array at (b, 0, p, q). -/
theorem bcast_chan_apply {α : Type} (v : S32x1x256x256.Idx → α) (b : Fin 32) (c : Fin 17) (p q : Fin 256) :
    broadcastInDim S32x17x256x256 ![0, 1, 2, 3] bcast_S32x1x256x256_S32x17x256x256_0_1_2_3 v (ix4 b c p q)
      = v (ix4 b 0 p q) := by
  simp only [broadcastInDim]
  congr 1
  funext a
  apply Fin.ext
  match a with
  | ⟨0, _⟩ =>
    split
    · next h1 => change (32 : ℕ) = 1 at h1; omega
    · rfl
  | ⟨1, _⟩ =>
    split
    · rfl
    · next h1 => exact absurd rfl h1
  | ⟨2, _⟩ =>
    split
    · next h1 => change (256 : ℕ) = 1 at h1; omega
    · rfl
  | ⟨3, _⟩ =>
    split
    · next h1 => change (256 : ℕ) = 1 at h1; omega
    · rfl

/-! ## The or over the channels -/

/-- The or-reduce over the channel axis reads, at (b, p, q), the specification's bit "some channel's target is
    positive". -/
theorem orMask_apply (T : FVec Ideal S32x17x256x256 .f32) (b : Fin 32) (p q : Fin 256) :
    orMask T (ix3 b p q) = Cert.Means.anyPos fun c => T (ix4 b c p q) := by
  have h : S32x17x256x256.Reduces [1] S32x256x256 := by decide
  have hl : ∀ k : Fin 17, h.lift (ix3 b p q) k = ix4 b k p q := by
    intro k
    funext a
    apply Fin.ext
    match a with
    | ⟨0, _⟩ => rfl
    | ⟨1, _⟩ => rfl
    | ⟨2, _⟩ => rfl
    | ⟨3, _⟩ => rfl
  unfold orMask
  refine (Host.reduce_eq_fold_single IntOp.ori (posMask T) _ reducesTo_S32x17x256x256_S32x256x256_d1 h h_S_
    (ix3 b p q)).trans ?_
  refine Eq.trans ?_ (fold_ori_eq_anyPos fun c => T (ix4 b c p q))
  show (Finset.univ : Finset (Fin 17)).fold IntOp.ori 0#1 (fun k => posMask T (h.lift (ix3 b p q) k)) = _
  refine Finset.fold_congr fun k _ => ?_
  rw [hl k, posMask_apply]

theorem orMask1_apply (T : FVec Ideal S32x17x256x256 .f32) (b : Fin 32) (c : Fin 1) (p q : Fin 256) :
    orMask1 T (ix4 b c p q) = Cert.Means.anyPos fun c' => T (ix4 b c' p q) := by
  unfold orMask1
  rw [bcast_unit_apply, orMask_apply]

theorem orMask17_apply (T : FVec Ideal S32x17x256x256 .f32) (b : Fin 32) (c : Fin 17) (p q : Fin 256) :
    orMask17 T (ix4 b c p q) = Cert.Means.anyPos fun c' => T (ix4 b c' p q) := by
  unfold orMask17
  rw [bcast_chan_apply, orMask1_apply]

/-! ## The result -/

/-- The reference's composed result is the specification's value. -/
theorem result_eq (X T : FVec Ideal S32x17x256x256 .f32) :
    Host.divf (addf (Host.divf (Host.reduceAdd (select (cmpf .ogt T (broadcastInDim S32x17x256x256 ![] bcast_S_S32x17x256x256 (constant S_ .f32 0x00000000#32))) (Host.absf (subf X T)) (broadcastInDim S32x17x256x256 ![] bcast_S_S32x17x256x256 (constant S_ .f32 0x00000000#32))) (constant S_ .f32 0x00000000#32) reducesTo_S32x17x256x256_S_d0_1_2_3 h_S_) (sitofp .f32 (Host.reduce IntOp.addi (extui 32 (cmpf .ogt T (broadcastInDim S32x17x256x256 ![] bcast_S_S32x17x256x256 (constant S_ .f32 0x00000000#32))) natLt_1_32) (constantI S_ 32 0#32) reducesTo_S32x17x256x256_S_d0_1_2_3 h_S_))) (Host.divf (Host.reduceAdd (select (broadcastInDim S32x17x256x256 ![0, 1, 2, 3] bcast_S32x1x256x256_S32x17x256x256_0_1_2_3 (broadcastInDim S32x1x256x256 ![0, 2, 3] bcast_S32x256x256_S32x1x256x256_0_2_3 (Host.reduce IntOp.ori (cmpf .ogt T (broadcastInDim S32x17x256x256 ![] bcast_S_S32x17x256x256 (constant S_ .f32 0x00000000#32))) (constantI S_ 1 0#1) reducesTo_S32x17x256x256_S32x256x256_d1 h_S_))) (Host.absf (subf X T)) (broadcastInDim S32x17x256x256 ![] bcast_S_S32x17x256x256 (constant S_ .f32 0x00000000#32))) (constant S_ .f32 0x00000000#32) reducesTo_S32x17x256x256_S_d0_1_2_3 h_S_) (mulf (sitofp .f32 (Host.reduce IntOp.addi (extui 32 (broadcastInDim S32x1x256x256 ![0, 2, 3] bcast_S32x256x256_S32x1x256x256_0_2_3 (Host.reduce IntOp.ori (cmpf .ogt T (broadcastInDim S32x17x256x256 ![] bcast_S_S32x17x256x256 (constant S_ .f32 0x00000000#32))) (constantI S_ 1 0#1) reducesTo_S32x17x256x256_S32x256x256_d1 h_S_)) natLt_1_32) (constantI S_ 32 0#32) reducesTo_S32x1x256x256_S_d0_1_2_3 h_S_)) (constant S_ .f32 0x41880000#32)))) (constant S_ .f32 0x40000000#32)
      = fun _ => Cert.Means.value X T := by
  funext i
  show Ideal.div
      (Ideal.div (total (posMask T) X T i) (count (posMask T) reducesTo_S32x17x256x256_S_d0_1_2_3 i)
        + Ideal.div (total (orMask17 T) X T i)
            (count (orMask1 T) reducesTo_S32x1x256x256_S_d0_1_2_3 i * Ideal.ofBits .f32 0x41880000#32))
      (Ideal.ofBits .f32 0x40000000#32) = _
  rw [total_apply, total_apply, count_apply _ _ card_17, count_apply _ _ card_1, ofBits_seventeen, ofBits_two,
    Ideal.div_coe two_ne_zero,
    sum_part1 X T (posMask T) (dists X T) (posMask_apply T) (dists_apply X T),
    count_part2 T (posMask T) (posMask_apply T),
    sum_part3 X T (orMask17 T) (dists X T) (orMask17_apply T) (dists_apply X T),
    count_part4 T (orMask1 T) (orMask1_apply T)]
  rfl

end Cert.ReferenceIdeal.Means

end
-- ==== Proof.lean ====
/-
  A masked L1 loss: half the sum of two masked means of |input - target| over f32[32, 17, 256, 256] arrays. The first
  mean is over the entries whose target is positive; the second over the entries of every pixel at which SOME channel's
  target is positive, so its count is seventeen times the number of such pixels.

  The kernel walks the 32 batch elements as grid points. It keeps four one-element running totals (the two masked sums of
  distances and the two counts), zeroes them at the first point, adds one batch element's contribution at each point,
  and at the last point writes half the sum of the two quotients; the host reshapes that one element to a scalar. The
  reference takes the four totals over the whole arrays at once — the sums as float reductions, the counts as integer
  sums of the mask bits converted to float — and divides the sum of the quotients by two.

  Over the extended reals the two results are one value (`Cert.Means.value`): addition there is commutative and
  associative, so summing batch element by batch element, and within one over channels, rows and columns in the kernel's
  order, is the reference's sum over all indices; a count of set bits is the same natural number whether it is formed as
  a float sum of ones and zeros or as an integer sum that does not wrap; "the maximum over the channels of the positive
  bits is above zero" is "the or over the channels of the positive bits"; a sum over the channels of a term kept or
  dropped by a bit that does not depend on the channel is the sum kept or dropped; seventeen times a sum of natural
  numbers is the sum of seventeen times each; and a quotient by two is the product with one half at every extended real.
  The quotients themselves are the same operation on both sides applied to equal operands, so nothing is asked of the
  counts being nonzero, and finiteness of the inputs is not used.

  The three frames: the kernel's two are generated whole; the reference has no kernel and its frame is its run with the
  result dropped. The idealization rewrote nothing, so there is nothing to preserve.
-/
import proofs.«400264_j44032004718828_4_alg».proof.Defs
import proofs.«400264_j44032004718828_4_alg».proof.Proof.Gen.Kernel
import proofs.«400264_j44032004718828_4_alg».proof.Proof.Gen.Kernel.Skeleton
import proofs.«400264_j44032004718828_4_alg».proof.Proof.Gen.Kernel.Launch
import proofs.«400264_j44032004718828_4_alg».proof.Proof.Gen.Kernel.Points
import proofs.«400264_j44032004718828_4_alg».proof.Proof.Gen.Kernel.Frame
import proofs.«400264_j44032004718828_4_alg».proof.Proof.Gen.KernelIdeal
import proofs.«400264_j44032004718828_4_alg».proof.Proof.Gen.KernelIdeal.Skeleton
import proofs.«400264_j44032004718828_4_alg».proof.Proof.Gen.KernelIdeal.Launch
import proofs.«400264_j44032004718828_4_alg».proof.Proof.Gen.KernelIdeal.Points
import proofs.«400264_j44032004718828_4_alg».proof.Proof.Gen.KernelIdeal.Frame
import proofs.«400264_j44032004718828_4_alg».proof.Proof.Gen.ReferenceIdeal
import proofs.«400264_j44032004718828_4_alg».proof.Proof.Gen.Pre_finite_inputs
import proofs.«400264_j44032004718828_4_alg».proof.Proof.Final
import proofs.«400264_j44032004718828_4_alg».proof.Proof.RefRun
import proofs.«400264_j44032004718828_4_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the specification's value of the two float arguments, which agree. -/
theorem algebraic : Cert.algebraic_KernelIdeal_ReferenceIdeal := by
  intro m ρ m' ρ' _ hagree
  refine ⟨fun c => fun _ => Cert.Means.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Means.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact Cert.ReferenceIdeal.Means.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
